-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S3x64 : Shape := ⟨2, ![3, 64]⟩
abbrev S64 : Shape := ⟨1, ![64]⟩
abbrev S50000 : Shape := ⟨1, ![50000]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x3 .f32) (main_arg1 : FVec F S3x64 .f32) (main_arg2 : FVec F S64 .f32) (main_arg3 : IVec S50000 32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x3 : Shape := ⟨2, ![50000, 3]⟩
abbrev S3x64 : Shape := ⟨2, ![3, 64]⟩
abbrev S64 : Shape := ⟨1, ![64]⟩
abbrev S50000 : Shape := ⟨1, ![50000]⟩
abbrev S50000x1 : Shape := ⟨2, ![50000, 1]⟩
abbrev S64x64 : Shape := ⟨2, ![64, 64]⟩
abbrev S4096 : Shape := ⟨1, ![4096]⟩
abbrev S_ : Shape := ⟨0, ![]⟩
abbrev S16x256 : Shape := ⟨2, ![16, 256]⟩
abbrev S2x128x4096 : Shape := ⟨3, ![2, 128, 4096]⟩
abbrev S5000x3 : Shape := ⟨2, ![5000, 3]⟩
abbrev S5000x1 : Shape := ⟨2, ![5000, 1]⟩
abbrev S1x128x4096 : Shape := ⟨3, ![1, 128, 4096]⟩
abbrev S128x4096 : Shape := ⟨2, ![128, 4096]⟩
abbrev S1x64 : Shape := ⟨2, ![1, 64]⟩
abbrev S5000x64 : Shape := ⟨2, ![5000, 64]⟩
abbrev S5000x128 : Shape := ⟨2, ![5000, 128]⟩
abbrev S128x5000 : Shape := ⟨2, ![128, 5000]⟩
abbrev S5000x256 : Shape := ⟨2, ![5000, 256]⟩
abbrev S1x256 : Shape := ⟨2, ![1, 256]⟩
abbrev S128x256 : Shape := ⟨2, ![128, 256]⟩
abbrev S1x128x256 : Shape := ⟨3, ![1, 128, 256]⟩
abbrev S128x64x64 : Shape := ⟨3, ![128, 64, 64]⟩

abbrev nBuf : Space → Nat
  | .hbm => 15
  | .vmem => 7
  | .smem => 0
  | _ => 0

abbrev bufTy : (tb : Table) → Fin (tcTables nBuf tb) → BufTy
  | .hbm, ⟨0, _⟩ => ⟨S50000x3, .f32⟩
  | .hbm, ⟨1, _⟩ => ⟨S3x64, .f32⟩
  | .hbm, ⟨2, _⟩ => ⟨S64, .f32⟩
  | .hbm, ⟨3, _⟩ => ⟨S50000, .i32⟩
  | .hbm, ⟨4, _⟩ => ⟨S50000x1, .i32⟩
  | .hbm, ⟨5, _⟩ => ⟨S64x64, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S16x256, .f32⟩
  | .hbm, ⟨11, _⟩ => ⟨S2x128x4096, .f32⟩
  | .hbm, ⟨12, _⟩ => ⟨S_, .f32⟩
  | .hbm, ⟨13, _⟩ => ⟨S128x4096, .f32⟩
  | .hbm, ⟨14, _⟩ => ⟨S128x64x64, .f32⟩
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S16x256, .f32⟩
  | .local _ .vmem, ⟨4, _⟩ => ⟨S5000x1, .i32⟩
  | .local _ .vmem, ⟨5, _⟩ => ⟨S5000x1, .i32⟩
  | .local _ .vmem, ⟨6, _⟩ => ⟨S1x128x4096, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S5000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S50000_S50000x1 : S50000.ShapeCasts S50000x1
  bcast_S64_S64x64_0 : S64.BroadcastsInDim S64x64 (![0] : Fin 1 → Fin S64x64.rank)
  shapeCasts_S64x64_S4096 : S64x64.ShapeCasts S4096
  bcast_S_S4096 : S_.BroadcastsInDim S4096 (![] : Fin 0 → Fin S4096.rank)
  shapeCasts_S4096_S16x256 : S4096.ShapeCasts S16x256
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  inb_S5000x3_S5000x1_0_0 : ∀ a, (![0, 0] : Fin 2 → Nat) a + S5000x1.size a ≤ S5000x3.size a
  h_S5000x1 : 0 < S5000x1.numel
  inb_S5000x3_S5000x1_0_1 : ∀ a, (![0, 1] : Fin 2 → Nat) a + S5000x1.size a ≤ S5000x3.size a
  inb_S5000x3_S5000x1_0_2 : ∀ a, (![0, 2] : Fin 2 → Nat) a + S5000x1.size a ≤ S5000x3.size a
  inb_S3x64_S1x64_0_0 : ∀ a, (![0, 0] : Fin 2 → Nat) a + S1x64.size a ≤ S3x64.size a
  h_S1x64 : 0 < S1x64.numel
  inb_S3x64_S1x64_1_0 : ∀ a, (![1, 0] : Fin 2 → Nat) a + S1x64.size a ≤ S3x64.size a
  inb_S3x64_S1x64_2_0 : ∀ a, (![2, 0] : Fin 2 → Nat) a + S1x64.size a ≤ S3x64.size a
  broadcasts_S5000x1_S5000x64 : S5000x1.Broadcasts S5000x64
  broadcasts_S1x64_S5000x64 : S1x64.Broadcasts S5000x64
  inb_S5000x1_S5000x1_0_0 : ∀ a, (![0, 0] : Fin 2 → Nat) a + S5000x1.size a ≤ S5000x1.size a
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  bitsLt_bf16_f32 : FTy.bits .bf16 < FTy.bits .f32
  transposes_S5000x128_p1_0_S128x5000 : S5000x128.Transposes [1, 0] S128x5000
  concatenates_S5000x64_S5000x64_S5000x64_S5000x64_S5000x256_d1 : Shape.Concatenates [S5000x64, S5000x64, S5000x64, S5000x64] S5000x256 1
  inb_S16x256_S1x256_0_0 : ∀ a, (![0, 0] : Fin 2 → Nat) a + S1x256.size a ≤ S16x256.size a
  h_S1x256 : 0 < S1x256.numel
  shapeCasts_S1x256_S1x256 : S1x256.ShapeCasts S1x256
  broadcasts_S1x256_S5000x256 : S1x256.Broadcasts S5000x256
  inb_S1x128x4096_S1x128x256_0_0_0 : ∀ a, (![0, 0, 0] : Fin 3 → Nat) a + S1x128x256.size a ≤ S1x128x4096.size a
  h_S1x128x256 : 0 < S1x128x256.numel
  shapeCasts_S1x128x256_S128x256 : S1x128x256.ShapeCasts S128x256
  shapeCasts_S128x256_S1x128x256 : S128x256.ShapeCasts S1x128x256
  inb_S16x256_S1x256_1_0 : ∀ a, (![1, 0] : Fin 2 → Nat) a + S1x256.size a ≤ S16x256.size a
  inb_S1x128x4096_S1x128x256_0_0_256 : ∀ a, (![0, 0, 256] : Fin 3 → Nat) a + S1x128x256.size a ≤ S1x128x4096.size a
  inb_S16x256_S1x256_2_0 : ∀ a, (![2, 0] : Fin 2 → Nat) a + S1x256.size a ≤ S16x256.size a
  inb_S1x128x4096_S1x128x256_0_0_512 : ∀ a, (![0, 0, 512] : Fin 3 → Nat) a + S1x128x256.size a ≤ S1x128x4096.size a
  inb_S16x256_S1x256_3_0 : ∀ a, (![3, 0] : Fin 2 → Nat) a + S1x256.size a ≤ S16x256.size a
  inb_S1x128x4096_S1x128x256_0_0_768 : ∀ a, (![0, 0, 768] : Fin 3 → Nat) a + S1x128x256.size a ≤ S1x128x4096.size a
  inb_S16x256_S1x256_4_0 : ∀ a, (![4, 0] : Fin 2 → Nat) a + S1x256.size a ≤ S16x256.size a
  inb_S1x128x4096_S1x128x256_0_0_1024 : ∀ a, (![0, 0, 1024] : Fin 3 → Nat) a + S1x128x256.size a ≤ S1x128x4096.size a
  inb_S16x256_S1x256_5_0 : ∀ a, (![5, 0] : Fin 2 → Nat) a + S1x256.size a ≤ S16x256.size a
  inb_S1x128x4096_S1x128x256_0_0_1280 : ∀ a, (![0, 0, 1280] : Fin 3 → Nat) a + S1x128x256.size a ≤ S1x128x4096.size a
  inb_S16x256_S1x256_6_0 : ∀ a, (![6, 0] : Fin 2 → Nat) a + S1x256.size a ≤ S16x256.size a
  inb_S1x128x4096_S1x128x256_0_0_1536 : ∀ a, (![0, 0, 1536] : Fin 3 → Nat) a + S1x128x256.size a ≤ S1x128x4096.size a
  inb_S16x256_S1x256_7_0 : ∀ a, (![7, 0] : Fin 2 → Nat) a + S1x256.size a ≤ S16x256.size a
  inb_S1x128x4096_S1x128x256_0_0_1792 : ∀ a, (![0, 0, 1792] : Fin 3 → Nat) a + S1x128x256.size a ≤ S1x128x4096.size a
  inb_S16x256_S1x256_8_0 : ∀ a, (![8, 0] : Fin 2 → Nat) a + S1x256.size a ≤ S16x256.size a
  inb_S1x128x4096_S1x128x256_0_0_2048 : ∀ a, (![0, 0, 2048] : Fin 3 → Nat) a + S1x128x256.size a ≤ S1x128x4096.size a
  inb_S16x256_S1x256_9_0 : ∀ a, (![9, 0] : Fin 2 → Nat) a + S1x256.size a ≤ S16x256.size a
  inb_S1x128x4096_S1x128x256_0_0_2304 : ∀ a, (![0, 0, 2304] : Fin 3 → Nat) a + S1x128x256.size a ≤ S1x128x4096.size a
  inb_S16x256_S1x256_10_0 : ∀ a, (![10, 0] : Fin 2 → Nat) a + S1x256.size a ≤ S16x256.size a
  inb_S1x128x4096_S1x128x256_0_0_2560 : ∀ a, (![0, 0, 2560] : Fin 3 → Nat) a + S1x128x256.size a ≤ S1x128x4096.size a
  inb_S16x256_S1x256_11_0 : ∀ a, (![11, 0] : Fin 2 → Nat) a + S1x256.size a ≤ S16x256.size a
  inb_S1x128x4096_S1x128x256_0_0_2816 : ∀ a, (![0, 0, 2816] : Fin 3 → Nat) a + S1x128x256.size a ≤ S1x128x4096.size a
  inb_S16x256_S1x256_12_0 : ∀ a, (![12, 0] : Fin 2 → Nat) a + S1x256.size a ≤ S16x256.size a
  inb_S1x128x4096_S1x128x256_0_0_3072 : ∀ a, (![0, 0, 3072] : Fin 3 → Nat) a + S1x128x256.size a ≤ S1x128x4096.size a
  inb_S16x256_S1x256_13_0 : ∀ a, (![13, 0] : Fin 2 → Nat) a + S1x256.size a ≤ S16x256.size a
  inb_S1x128x4096_S1x128x256_0_0_3328 : ∀ a, (![0, 0, 3328] : Fin 3 → Nat) a + S1x128x256.size a ≤ S1x128x4096.size a
  inb_S16x256_S1x256_14_0 : ∀ a, (![14, 0] : Fin 2 → Nat) a + S1x256.size a ≤ S16x256.size a
  inb_S1x128x4096_S1x128x256_0_0_3584 : ∀ a, (![0, 0, 3584] : Fin 3 → Nat) a + S1x128x256.size a ≤ S1x128x4096.size a
  inb_S16x256_S1x256_15_0 : ∀ a, (![15, 0] : Fin 2 → Nat) a + S1x256.size a ≤ S16x256.size a
  inb_S1x128x4096_S1x128x256_0_0_3840 : ∀ a, (![0, 0, 3840] : Fin 3 → Nat) a + S1x128x256.size a ≤ S1x128x4096.size a
  reducesTo_S2x128x4096_S128x4096_d0 : S2x128x4096.ReducesTo [0] S128x4096
  h_S_ : 0 < S_.numel
  shapeCasts_S128x4096_S128x64x64 : S128x4096.ShapeCasts S128x64x64
  dot_S128x5000_S5000x256_S128x256_1_0_0_1_n_n_wf : DotDims.WF S128x5000 S5000x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .i32 = 32 ∨ (Rect.block (s := S50000x1) S5000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S2x128x4096.size a
  hwx0_4 : ∀ i : grid0.Coords, EltTy.bits .f32 = 32 ∨ (Rect.block (s := S2x128x4096) S1x128x4096.size (cc0_transform_4 i) (hinb0_4 i)).WholeWords (EltTy.packing .f32)

variable [Facts₀]

def dot_S128x5000_S5000x256_S128x256_1_0_0_1_n_n : DotDims S128x5000 S5000x256 S128x256 where
  lhsContracting := [1]
  rhsContracting := [0]
  lhsNonContracting := [0]
  rhsNonContracting := [1]
  lhsBatch := []
  rhsBatch := []
  wf := dot_S128x5000_S5000x256_S128x256_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x3 : Shape := ⟨2, ![50000, 3]⟩
abbrev S3x64 : Shape := ⟨2, ![3, 64]⟩
abbrev S64 : Shape := ⟨1, ![64]⟩
abbrev S50000 : Shape := ⟨1, ![50000]⟩
abbrev S50000x64 : Shape := ⟨2, ![50000, 64]⟩
abbrev S1x64x1 : Shape := ⟨3, ![1, 64, 1]⟩
abbrev S50000x1x64 : Shape := ⟨3, ![50000, 1, 64]⟩
abbrev S50000x64x64 : Shape := ⟨3, ![50000, 64, 64]⟩
abbrev S_ : Shape := ⟨0, ![]⟩
abbrev S128x64x64 : Shape := ⟨3, ![128, 64, 64]⟩
abbrev S50000x1 : Shape := ⟨2, ![50000, 1]⟩

abbrev nBuf : Space → Nat
  | .hbm => 25
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S3x64, .f32⟩
  | .hbm, ⟨2, _⟩ => ⟨S64, .f32⟩
  | .hbm, ⟨3, _⟩ => ⟨S50000, .i32⟩
  | .hbm, ⟨4, _⟩ => ⟨S50000x64, .f32⟩
  | .hbm, ⟨5, _⟩ => ⟨S1x64x1, .f32⟩
  | .hbm, ⟨6, _⟩ => ⟨S50000x1x64, .f32⟩
  | .hbm, ⟨7, _⟩ => ⟨S50000x64x64, .f32⟩
  | .hbm, ⟨8, _⟩ => ⟨S50000x64x64, .f32⟩
  | .hbm, ⟨9, _⟩ => ⟨S50000x64x64, .f32⟩
  | .hbm, ⟨10, _⟩ => ⟨S_, .f32⟩
  | .hbm, ⟨11, _⟩ => ⟨S50000x64x64, .f32⟩
  | .hbm, ⟨12, _⟩ => ⟨S50000x64x64, .f32⟩
  | .hbm, ⟨13, _⟩ => ⟨S50000x64x64, .f32⟩
  | .hbm, ⟨14, _⟩ => ⟨S50000x64x64, .f32⟩
  | .hbm, ⟨15, _⟩ => ⟨S_, .f32⟩
  | .hbm, ⟨16, _⟩ => ⟨S50000x64x64, .f32⟩
  | .hbm, ⟨17, _⟩ => ⟨S50000x64x64, .f32⟩
  | .hbm, ⟨18, _⟩ => ⟨S_, .f32⟩
  | .hbm, ⟨19, _⟩ => ⟨S50000x64x64, .f32⟩
  | .hbm, ⟨20, _⟩ => ⟨S50000x64x64, .f32⟩
  | .hbm, ⟨21, _⟩ => ⟨S_, .f32⟩
  | .hbm, ⟨22, _⟩ => ⟨S128x64x64, .f32⟩
  | .hbm, ⟨23, _⟩ => ⟨S50000x1, .i32⟩
  | .hbm, ⟨24, _⟩ => ⟨S128x64x64, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S64_S1x64x1_1 : S64.BroadcastsInDim S1x64x1 (![1] : Fin 1 → Fin S1x64x1.rank)
  bcast_S50000x64_S50000x1x64_0_2 : S50000x64.BroadcastsInDim S50000x1x64 (![0, 2] : Fin 2 → Fin S50000x1x64.rank)
  bcast_S1x64x1_S50000x64x64_0_1_2 : S1x64x1.BroadcastsInDim S50000x64x64 (![0, 1, 2] : Fin 3 → Fin S50000x64x64.rank)
  bcast_S50000x1x64_S50000x64x64_0_1_2 : S50000x1x64.BroadcastsInDim S50000x64x64 (![0, 1, 2] : Fin 3 → Fin S50000x64x64.rank)
  bcast_S_S50000x64x64 : S_.BroadcastsInDim S50000x64x64 (![] : Fin 0 → Fin S50000x64x64.rank)
  bcast_S_S128x64x64 : S_.BroadcastsInDim S128x64x64 (![] : Fin 0 → Fin S128x64x64.rank)
  bcast_S50000_S50000x1_0 : S50000.BroadcastsInDim S50000x1 (![0] : Fin 1 → Fin S50000x1.rank)
  dot_S50000x3_S3x64_S50000x64_1_0_0_1_n_n_wf : DotDims.WF S50000x3 S3x64 S50000x64 [1] [0] [0] [1] [] []
  scatter_S128x64x64_S50000x1_S50000x64x64_12_0_0_1_wf : ScatterDims.WF S128x64x64 S50000x1 S50000x64x64 [1, 2] [0] [0] 1

variable [Facts₀]

def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def scatter_S128x64x64_S50000x1_S50000x64x64_12_0_0_1 : ScatterDims S128x64x64 S50000x1 S50000x64x64 where
  updateWindowDims := [1, 2]
  insertedWindowDims := [0]
  scatterDimsToOperandDims := [0]
  indexVectorDim := 1
  wf := scatter_S128x64x64_S50000x1_S50000x64x64_12_0_0_1_wf

class Facts : Prop extends Facts₀ where

variable [Facts]
-- ==== Proof.ChunkDef.lean ====
/-
  One chunk of the kernel's body, and what one grid point adds to the accumulator.

  The body walks the 4096 lanes of the accumulator block in sixteen chunks of 256. For chunk c it loads row c of
  the scaled step table, subtracts the tile's scaled heights (the 64 directions repeated four times), applies the
  logistic function, multiplies the tile's graph indicator (128 x 5000) into that (5000 x 256), and adds the
  product to lanes 256 c .. 256 c + 255 of the accumulator. Every chunk's stored value is the same function
  (chunkPay) of the indicator, the scaled heights, the table row and the lanes' previous contents.
-/
import proofs.«429855_j39994735461117_3_alg».proof.Proof.Gen.KernelIdeal.Skeleton
import Idealize.ShloMosaic.PureOps.Ideal
import Idealize.ShloMosaic.Lib.ValueIdx

noncomputable section

namespace Cert.KernelIdeal.Chunk

open Cert.KernelIdeal Cert.KernelIdeal.Gen Idealize.ShloMosaic Idealize.ShloMosaic.ValueIdx
open scoped BigOperators

variable {F : FTy → Type} [FloatOps F]

/-- What a chunk stores: the lanes' previous contents plus the indicator times the logistic of (table row minus
    scaled heights). -/
def chunkPay (oh : FVec F S128x5000 .bf16) (nh : FVec F S5000x256 .f32) (lin : Vec F S1x256 .f32)
    (prev : Vec F S1x128x256 .f32) : FVec F S1x128x256 .f32 :=
  shapeCast S1x128x256
    (addf (shapeCast S128x256 prev shapeCasts_S1x128x256_S128x256)
      (matmul dot_S128x5000_S5000x256_S128x256_1_0_0_1_n_n none oh
        (truncf .bf16
          (logistic (subf (broadcastTo S5000x256 (shapeCast S1x256 lin shapeCasts_S1x256_S1x256) broadcasts_S1x256_S5000x256) nh))
          bitsLt_bf16_f32)
        (constant S128x256 .f32 0x00000000#32)))
    shapeCasts_S128x256_S1x128x256

/-- What one grid point adds at (0, g, L) of the accumulator block, from the point's four input blocks: the sum
    over the tile's rows r of [batch r = g] times the logistic of (table (L / 256, L % 256) minus 500 times the
    height of row r in direction L % 64). -/
def pt (xb : S5000x3.Idx → EReal) (vb : S3x64.Idx → EReal) (lb : S16x256.Idx → EReal) (bb : S5000x1.Idx → BitVec 32)
    (y : S1x128x4096.Idx) : EReal :=
  ∑ r : Fin 5000,
    (if bb (ix2 r (0 : Fin 1)) = BitVec.ofNat 32 (y 1).val then (1 : EReal) else 0)
      * Ideal.logistic
          (lb (ix2 (⟨(y 2).val / 256, by have h : (y 2).val < 4096 := (y 2).isLt; omega⟩ : Fin 16) (⟨(y 2).val % 256, Nat.mod_lt _ (by decide)⟩ : Fin 256))
            - Ideal.ofBits .f32 0x43FA0000#32
              * ((xb (ix2 r (0 : Fin 3)) * vb (ix2 (0 : Fin 3) (⟨(y 2).val % 64, Nat.mod_lt _ (by decide)⟩ : Fin 64))
                  + xb (ix2 r (1 : Fin 3)) * vb (ix2 (1 : Fin 3) (⟨(y 2).val % 64, Nat.mod_lt _ (by decide)⟩ : Fin 64)))
                + xb (ix2 r (2 : Fin 3)) * vb (ix2 (2 : Fin 3) (⟨(y 2).val % 64, Nat.mod_lt _ (by decide)⟩ : Fin 64))))

end Cert.KernelIdeal.Chunk

end
-- ==== Proof.Pieces.lean ====
/-
  What one run of the kernel's body leaves in the accumulator block, generic in the float instance.

  The block has 4096 lanes, handled in sixteen chunks of 256. Chunk k reads lanes 256 k .. 256 k + 255 of the
  block, adds the chunk's product (ChunkDef: chunkPay) and stores the sum back to the same lanes. No chunk touches
  another chunk's lanes, so after the sixteen stores the value at lane L is chunk L / 256's stored value, computed
  from the block's contents BEFORE the body ran (tileVal). In the first tile of each half the body first fills the
  block with zeros; every chunk then reads back zeros, because the stores made before it lie on lower lanes.

  The run's list of stores is described by two inductive predicates (AccList: a fill, then k chunks each reading
  back through the stores made so far; TileList: k chunks reading the contents the body found), and the value a
  list of that form leaves is proved once, by induction on the number of chunks.
-/
import proofs.«429855_j39994735461117_3_alg».proof.Proof.Gen.KernelIdeal.Frame
import proofs.«429855_j39994735461117_3_alg».proof.Proof.ChunkDef
import Idealize.ShloMosaic.Lib.Pipeline.Value

set_option maxRecDepth 16384

noncomputable section

namespace Cert.KernelIdeal.Pieces

open Cert.KernelIdeal Cert.KernelIdeal.Gen Cert.KernelIdeal.Chunk
open Idealize.ShloMosaic Idealize.ShloMosaic.TcCoe Idealize.ShloMosaic.Tactic Idealize.ShloMosaic.ValueIdx
open Idealize.SL Idealize.SL.Sem

variable {F : FTy → Type} [FloatOps F]

/-! ## The chunks' rectangles -/

/-- Lanes 256 k .. 256 k + 255 lie inside the block. -/
theorem accInb (k : ℕ) (hk : k < 16) :
    ∀ a, (![0, 0, 256 * k] : Fin 3 → ℕ) a + (![1, 128, 256] : Fin 3 → ℕ) a ≤ S1x128x4096.size a := by
  intro a
  match a with
  | ⟨0, _⟩ => show (0 : ℕ) + 1 ≤ 1; omega
  | ⟨1, _⟩ => show (0 : ℕ) + 128 ≤ 128; omega
  | ⟨2, _⟩ => show 256 * k + 256 ≤ 4096; omega

/-- Row k lies inside the 16 x 256 table. -/
theorem linInb (k : ℕ) (hk : k < 16) :
    ∀ a, (![k, 0] : Fin 2 → ℕ) a + (![1, 256] : Fin 2 → ℕ) a ≤ S16x256.size a := by
  intro a
  match a with
  | ⟨0, _⟩ => show k + 1 ≤ 16; omega
  | ⟨1, _⟩ => show (0 : ℕ) + 256 ≤ 256; omega

/-- Chunk k's lanes of the accumulator block. -/
abbrev accRect (k : ℕ) (hk : k < 16) : Rect S1x128x4096 := Rect.unit ![0, 0, 256 * k] ![1, 128, 256] (accInb k hk)

theorem lane_lt (y : S1x128x4096.Idx) : (y 2).val < 4096 := (y 2).isLt
theorem lane_div_lt (y : S1x128x4096.Idx) : (y 2).val / 256 < 16 := by have := lane_lt y; omega

/-- A block index inside its chunk: the same row, the lane modulo 256. -/
abbrev loc (y : S1x128x4096.Idx) : S1x128x256.Idx :=
  ix3 (0 : Fin 1) (⟨(y 1).val, (y 1).isLt⟩ : Fin 128) (⟨(y 2).val % 256, Nat.mod_lt _ (by decide)⟩ : Fin 256)

theorem mem_accRect (k : ℕ) (hk : k < 16) (y : S1x128x4096.Idx) :
    y ∈ (accRect k hk).set ↔ 256 * k ≤ (y 2).val ∧ (y 2).val < 256 * k + 256 := by
  rw [Rect.mem_set_unit]
  constructor
  · intro h; exact h 2
  · intro h a
    match a with
    | ⟨0, _⟩ => exact ⟨Nat.zero_le _, by have h0 : (y 0).val < 1 := (y 0).isLt; show (y 0).val < 0 + 1; omega⟩
    | ⟨1, _⟩ => exact ⟨Nat.zero_le _, by have h1 : (y 1).val < 128 := (y 1).isLt; show (y 1).val < 0 + 128; omega⟩
    | ⟨2, _⟩ => exact h

section

variable (oh : FVec F S128x5000 .bf16) (nh : FVec F S5000x256 .f32) (linrow : (k : ℕ) → k < 16 → Vec F S1x256 .f32)

/-! ## The value the sixteen chunks leave over contents P -/

/-- At lane L: chunk L / 256's stored value, over the contents P found on that chunk's lanes. -/
def tileVal (P : Vec F S1x128x4096 .f32) : Vec F S1x128x4096 .f32 := fun y =>
  chunkPay oh nh (linrow ((y 2).val / 256) (lane_div_lt y)) (View.ld P (accRect ((y 2).val / 256) (lane_div_lt y))) (loc y)

/-- At a place of chunk k's rectangle it is chunk k's stored value at that place. -/
theorem tileVal_emb (P : Vec F S1x128x4096 .f32) (k : ℕ) (hk : k < 16) (x : (accRect k hk).shape.Idx) :
    tileVal oh nh linrow P ((accRect k hk).emb x) = chunkPay oh nh (linrow k hk) (View.ld P (accRect k hk)) x := by
  have hx0 : (x 0).val < 1 := (x 0).isLt
  have hx2 : (x 2).val < 256 := (x 2).isLt
  have e2 : (((accRect k hk).emb x) 2).val = 256 * k + 1 * (x 2).val := rfl
  have e1 : (((accRect k hk).emb x) 1).val = 0 + 1 * (x 1).val := rfl
  have ek : (((accRect k hk).emb x) 2).val / 256 = k := by rw [e2]; omega
  have key : ∀ (k' : ℕ) (hk' : k' < 16) (x' : S1x128x256.Idx), k' = k → x' = x →
      chunkPay oh nh (linrow k' hk') (View.ld P (accRect k' hk')) x' = chunkPay oh nh (linrow k hk) (View.ld P (accRect k hk)) x := by
    intro k' hk' x' h1 h2; subst h1; subst h2; rfl
  unfold tileVal
  refine key _ _ _ ek (funext fun a => ?_)
  match a with
  | ⟨0, _⟩ => exact Fin.ext (by show (0 : ℕ) = (x 0).val; omega)
  | ⟨1, _⟩ => exact Fin.ext (by show (((accRect k hk).emb x) 1).val = (x 1).val; rw [e1]; omega)
  | ⟨2, _⟩ => exact Fin.ext (by show (((accRect k hk).emb x) 2).val % 256 = (x 2).val; rw [e2]; omega)

variable (v : View sig .tc .vmem S1x128x4096 .f32)

/-! ## A fill, then k chunks reading back through the stores made so far -/

/-- The stores (last first) of a fill of the whole block with w0 followed by chunks 0 .. k-1, each chunk's
    read-back being the covered load of its lanes after the stores before it. -/
inductive AccList (w0 : Vec F S1x128x4096 .f32) : ℕ → List (View.Piece (Elt F) S1x128x4096 .f32) → Prop
  | base (inb : ∀ a, (![0, 0, 0] : Fin 3 → ℕ) a + S1x128x4096.size a ≤ S1x128x4096.size a) :
      AccList w0 0 [⟨Rect.unit ![0, 0, 0] S1x128x4096.size inb, w0⟩]
  | step (k : ℕ) (hk : k < 16) (L : List (View.Piece (Elt F) S1x128x4096 .f32)) : AccList w0 k L →
      AccList w0 (k + 1)
        (⟨accRect k hk, chunkPay oh nh (linrow k hk) (v.readCov L (accRect k hk).toLoadRect)⟩ :: L)

theorem hz3 : (![0, 0, 0] : Fin 3 → ℕ) = fun _ => 0 := funext fun a => by
  match a with
  | ⟨0, _⟩ => rfl
  | ⟨1, _⟩ => rfl
  | ⟨2, _⟩ => rfl

/-- Such a list leaves, below lane 256 k, the chunks' values over w0, and w0 from lane 256 k on. -/
theorem AccList.canon_eq {w0 : Vec F S1x128x4096 .f32} {k : ℕ} {L : List (View.Piece (Elt F) S1x128x4096 .f32)}
    (h : AccList oh nh linrow v w0 k L) :
    ∀ y : S1x128x4096.Idx, View.canon L y = if (y 2).val < 256 * k then tileVal oh nh linrow w0 y else w0 y := by
  induction h with
  | base inb =>
    intro y
    rw [View.canon_unit_zero hz3, if_neg (by omega)]
  | step k hk L _ ih =>
    intro y
    by_cases hm : y ∈ (accRect k hk).set
    · obtain ⟨x, rfl⟩ := (accRect k hk).exists_idx_of_mem hm
      have hx2 : (x 2).val < 256 := (x 2).isLt
      have e2 : (((accRect k hk).emb x) 2).val = 256 * k + 1 * (x 2).val := rfl
      rw [show (accRect k hk).idx x = (accRect k hk).emb x from rfl, View.canon_cons_emb,
        if_pos (by rw [e2]; omega), tileVal_emb]
      congr 1
      rw [View.readCov_eq_canon']
      funext j
      have hj2 : (j 2).val < 256 := (j 2).isLt
      have ej : (((accRect k hk).toLoadRect.idx j) 2).val = 256 * k + 1 * (j 2).val := rfl
      rw [ih, if_neg (by rw [ej]; omega)]
    · have hn := (not_congr (mem_accRect k hk y)).mp hm
      rw [View.canon_cons_of_not_mem (⟨accRect k hk, _⟩ : View.Piece (Elt F) S1x128x4096 .f32) L hm, ih y]
      by_cases h1 : (y 2).val < 256 * k
      · rw [if_pos h1, if_pos (by omega)]
      · rw [if_neg h1, if_neg (by omega)]

/-! ## k chunks reading the contents the body found -/

/-- The stores (last first) of chunks 0 .. k-1, each chunk's read-back a load of its lanes of contents f. -/
inductive TileList (f : v.ty.Contents (Elt F)) : ℕ → List (View.Piece (Elt F) S1x128x4096 .f32) → Prop
  | base : TileList f 0 []
  | step (k : ℕ) (hk : k < 16) (L : List (View.Piece (Elt F) S1x128x4096 .f32)) : TileList f k L →
      TileList f (k + 1)
        (⟨accRect k hk, chunkPay oh nh (linrow k hk) (View.readAt (Elt F) v (accRect k hk).toLoadRect f)⟩ :: L)

/-- Such a list leaves, below lane 256 k, the chunks' values over what f reads. -/
theorem TileList.canon_eq {f : v.ty.Contents (Elt F)} {k : ℕ} {L : List (View.Piece (Elt F) S1x128x4096 .f32)}
    (h : TileList oh nh linrow v f k L) :
    ∀ y : S1x128x4096.Idx, (y 2).val < 256 * k → View.canon L y = tileVal oh nh linrow (v.read (Elt F) f) y := by
  induction h with
  | base => intro y hy; omega
  | step k hk L _ ih =>
    intro y hy
    by_cases hm : y ∈ (accRect k hk).set
    · obtain ⟨x, rfl⟩ := (accRect k hk).exists_idx_of_mem hm
      rw [show (accRect k hk).idx x = (accRect k hk).emb x from rfl, View.canon_cons_emb, tileVal_emb]
      rfl
    · have hn := (not_congr (mem_accRect k hk y)).mp hm
      rw [View.canon_cons_of_not_mem (⟨accRect k hk, _⟩ : View.Piece (Elt F) S1x128x4096 .f32) L hm]
      exact ih y (by omega)

end

/-! ## The body's two cases -/

/-- The tile's graph indicator, from the batch block. -/
abbrev ohOf (x3 : Vec F S5000x1 .i32) : FVec F S128x5000 .bf16 :=
  k0_pay2 (View.ld x3 (Rect.unit (s := S5000x1) ![0, 0] S5000x1.size inb_S5000x1_S5000x1_0_0))

/-- The tile's scaled heights, from the x block's three columns and the v block's three rows. -/
abbrev nhOf (x0 : Vec F S5000x3 .f32) (x1 : Vec F S3x64 .f32) : FVec F S5000x256 .f32 :=
  k0_pay3 (View.ld x0 (Rect.unit (s := S5000x3) ![0, 0] S5000x1.size inb_S5000x3_S5000x1_0_0))
    (View.ld x0 (Rect.unit (s := S5000x3) ![0, 1] S5000x1.size inb_S5000x3_S5000x1_0_1))
    (View.ld x0 (Rect.unit (s := S5000x3) ![0, 2] S5000x1.size inb_S5000x3_S5000x1_0_2))
    (View.ld x1 (Rect.unit (s := S3x64) ![0, 0] S1x64.size inb_S3x64_S1x64_0_0))
    (View.ld x1 (Rect.unit (s := S3x64) ![1, 0] S1x64.size inb_S3x64_S1x64_1_0))
    (View.ld x1 (Rect.unit (s := S3x64) ![2, 0] S1x64.size inb_S3x64_S1x64_2_0))

/-- Row k of the scaled step table. -/
abbrev linOf (x2 : Vec F S16x256 .f32) : (k : ℕ) → k < 16 → Vec F S1x256 .f32 :=
  fun k hk => View.ld x2 (Rect.unit (s := S16x256) ![k, 0] ![1, 256] (linInb k hk))

/-- A tile that is not the first of its half: the sixteen chunks over the contents xo4 the body found. -/
theorem out_B (c : Dev nD) (i : grid0.Coords) (arg2 : Memref sig .tc .vmem S5000x3 .f32) (harg2 : arg2.IsWhole) (arg3 : Memref sig .tc .vmem S3x64 .f32) (harg3 : arg3.IsWhole) (arg4 : Memref sig .tc .vmem S16x256 .f32) (harg4 : arg4.IsWhole) (arg5 : Memref sig .tc .vmem S5000x1 .i32) (harg5 : arg5.IsWhole) (arg6 : Memref sig .tc .vmem S1x128x4096 .f32) (harg6 : arg6.IsWhole) (hc0 : ¬cond0_0 i)
    (x0 : Vec F S5000x3 .f32) (x1 : Vec F S3x64 .f32) (x2 : Vec F S16x256 .f32) (x3 : Vec F S5000x1 .i32) (xo4 : Vec F S1x128x4096 .f32) :
    out0_B_4 c i arg2 harg2 arg3 harg3 arg4 harg4 arg5 harg5 arg6 harg6 hc0 x0 x1 x2 x3 xo4
      = tileVal (ohOf x3) (nhOf x0 x1) (linOf x2) xo4 := by
  unfold out0_B_4
  rw [View.read_writes_eq_canon _ _ _ (cover0_B_4 c i arg2 harg2 arg3 harg3 arg4 harg4 arg5 harg5 arg6 harg6 hc0 x0 x1 x2 x3 xo4)]
  have hL : TileList
      (k0_pay2 (View.readAt (Elt F) arg5.view (Rect.unit (s := S5000x1) ![0, 0] S5000x1.size inb_S5000x1_S5000x1_0_0).toLoadRect (harg5.unread x3)))
      (k0_pay3
        (View.readAt (Elt F) arg2.view (Rect.unit (s := S5000x3) ![0, 0] S5000x1.size inb_S5000x3_S5000x1_0_0).toLoadRect (harg2.unread x0))
        (View.readAt (Elt F) arg2.view (Rect.unit (s := S5000x3) ![0, 1] S5000x1.size inb_S5000x3_S5000x1_0_1).toLoadRect (harg2.unread x0))
        (View.readAt (Elt F) arg2.view (Rect.unit (s := S5000x3) ![0, 2] S5000x1.size inb_S5000x3_S5000x1_0_2).toLoadRect (harg2.unread x0))
        (View.readAt (Elt F) arg3.view (Rect.unit (s := S3x64) ![0, 0] S1x64.size inb_S3x64_S1x64_0_0).toLoadRect (harg3.unread x1))
        (View.readAt (Elt F) arg3.view (Rect.unit (s := S3x64) ![1, 0] S1x64.size inb_S3x64_S1x64_1_0).toLoadRect (harg3.unread x1))
        (View.readAt (Elt F) arg3.view (Rect.unit (s := S3x64) ![2, 0] S1x64.size inb_S3x64_S1x64_2_0).toLoadRect (harg3.unread x1)))
      (fun k hk => View.readAt (Elt F) arg4.view (Rect.unit (s := S16x256) ![k, 0] ![1, 256] (linInb k hk)).toLoadRect (harg4.unread x2))
      arg6.view (harg6.unread xo4) 16
      (kernelRun0_B c i arg2 harg2 arg3 harg3 arg4 harg4 arg5 harg5 arg6 harg6 hc0 x0 x1 x2 x3 xo4).1 := by
    unfold kernelRun0_B
    dsimp only
    exact .step 15 (by decide) _ (.step 14 (by decide) _ (.step 13 (by decide) _ (.step 12 (by decide) _
      (.step 11 (by decide) _ (.step 10 (by decide) _ (.step 9 (by decide) _ (.step 8 (by decide) _
      (.step 7 (by decide) _ (.step 6 (by decide) _ (.step 5 (by decide) _ (.step 4 (by decide) _
      (.step 3 (by decide) _ (.step 2 (by decide) _ (.step 1 (by decide) _ (.step 0 (by decide) _ .base)))))))))))))))
  funext y
  rw [hL.canon_eq _ _ _ _ y (lane_lt y)]
  simp only [View.readAt_eq_ld, harg2.read_unread, harg3.read_unread, harg4.read_unread, harg5.read_unread, harg6.read_unread]

/-- The first tile of a half: the block filled with zeros, then the sixteen chunks over the zeros. -/
theorem out_A (c : Dev nD) (i : grid0.Coords) (arg2 : Memref sig .tc .vmem S5000x3 .f32) (harg2 : arg2.IsWhole) (arg3 : Memref sig .tc .vmem S3x64 .f32) (harg3 : arg3.IsWhole) (arg4 : Memref sig .tc .vmem S16x256 .f32) (harg4 : arg4.IsWhole) (arg5 : Memref sig .tc .vmem S5000x1 .i32) (harg5 : arg5.IsWhole) (arg6 : Memref sig .tc .vmem S1x128x4096 .f32) (harg6 : arg6.IsWhole) (hc0 : cond0_0 i)
    (x0 : Vec F S5000x3 .f32) (x1 : Vec F S3x64 .f32) (x2 : Vec F S16x256 .f32) (x3 : Vec F S5000x1 .i32) :
    out0_A_4 c i arg2 harg2 arg3 harg3 arg4 harg4 arg5 harg5 arg6 harg6 hc0 x0 x1 x2 x3
      = tileVal (ohOf x3) (nhOf x0 x1) (linOf x2) k0_pay1 := by
  unfold out0_A_4
  rw [View.read_writes_eq_canon _ _ _ (cover0_A_4 c i arg2 harg2 arg3 harg3 arg4 harg4 arg5 harg5 arg6 harg6 hc0 x0 x1 x2 x3)]
  have hL : AccList
      (k0_pay2 (View.readAt (Elt F) arg5.view (Rect.unit (s := S5000x1) ![0, 0] S5000x1.size inb_S5000x1_S5000x1_0_0).toLoadRect (harg5.unread x3)))
      (k0_pay3
        (View.readAt (Elt F) arg2.view (Rect.unit (s := S5000x3) ![0, 0] S5000x1.size inb_S5000x3_S5000x1_0_0).toLoadRect (harg2.unread x0))
        (View.readAt (Elt F) arg2.view (Rect.unit (s := S5000x3) ![0, 1] S5000x1.size inb_S5000x3_S5000x1_0_1).toLoadRect (harg2.unread x0))
        (View.readAt (Elt F) arg2.view (Rect.unit (s := S5000x3) ![0, 2] S5000x1.size inb_S5000x3_S5000x1_0_2).toLoadRect (harg2.unread x0))
        (View.readAt (Elt F) arg3.view (Rect.unit (s := S3x64) ![0, 0] S1x64.size inb_S3x64_S1x64_0_0).toLoadRect (harg3.unread x1))
        (View.readAt (Elt F) arg3.view (Rect.unit (s := S3x64) ![1, 0] S1x64.size inb_S3x64_S1x64_1_0).toLoadRect (harg3.unread x1))
        (View.readAt (Elt F) arg3.view (Rect.unit (s := S3x64) ![2, 0] S1x64.size inb_S3x64_S1x64_2_0).toLoadRect (harg3.unread x1)))
      (fun k hk => View.readAt (Elt F) arg4.view (Rect.unit (s := S16x256) ![k, 0] ![1, 256] (linInb k hk)).toLoadRect (harg4.unread x2))
      arg6.view k0_pay1 16
      (kernelRun0_A c i arg2 harg2 arg3 harg3 arg4 harg4 arg5 harg5 arg6 harg6 hc0 x0 x1 x2 x3).1 := by
    unfold kernelRun0_A
    dsimp only
    exact .step 15 (by decide) _ (.step 14 (by decide) _ (.step 13 (by decide) _ (.step 12 (by decide) _
      (.step 11 (by decide) _ (.step 10 (by decide) _ (.step 9 (by decide) _ (.step 8 (by decide) _
      (.step 7 (by decide) _ (.step 6 (by decide) _ (.step 5 (by decide) _ (.step 4 (by decide) _
      (.step 3 (by decide) _ (.step 2 (by decide) _ (.step 1 (by decide) _ (.step 0 (by decide) _ (.base _))))))))))))))))
  funext y
  rw [hL.canon_eq _ _ _ _ y, if_pos (lane_lt y)]
  simp only [View.readAt_eq_ld, harg2.read_unread, harg3.read_unread, harg4.read_unread, harg5.read_unread]

end Cert.KernelIdeal.Pieces

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.Chunk.lean ====
/-
  One chunk's arithmetic read at an index, over the extended reals.

  The indicator of the tile's graph numbers, at (g, r), is 1 when row r's graph number is the word g and 0 otherwise.
  The scaled heights, at (r, j), are 500 times the height of row r in direction j mod 64 (the 64 directions stand side
  by side four times). What a chunk stores at (0, g, j) is the lanes' previous content plus the sum over the tile's
  rows r of the indicator at (g, r) times the logistic of (table row at j minus scaled height at (r, j)).
-/
import proofs.«429855_j39994735461117_3_alg».proof.Proof.ChunkDef
import proofs.«429855_j39994735461117_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.ValueIdx
open scoped BigOperators

/-! ## The product's operand indices, axis by axis -/

theorem lhs_dot_0 (i : S128x256.Idx) (q : dot_S128x5000_S5000x256_S128x256_1_0_0_1_n_n.contr.Idx) :
    (dot_S128x5000_S5000x256_S128x256_1_0_0_1_n_n.lhsIdx i q 0).val = (i 0).val := by
  unfold DotDims.lhsIdx
  rw [dif_neg (show ¬(0 : Fin S128x5000.rank) ∈ dot_S128x5000_S5000x256_S128x256_1_0_0_1_n_n.lhsBatch by decide), dif_pos (show (0 : Fin S128x5000.rank) ∈ dot_S128x5000_S5000x256_S128x256_1_0_0_1_n_n.lhsNonContracting by decide)]
  rfl
theorem lhs_dot_1 (i : S128x256.Idx) (q : dot_S128x5000_S5000x256_S128x256_1_0_0_1_n_n.contr.Idx) :
    (dot_S128x5000_S5000x256_S128x256_1_0_0_1_n_n.lhsIdx i q 1).val = (q ⟨0, by decide⟩).val :=
  dot_S128x5000_S5000x256_S128x256_1_0_0_1_n_n.lhsIdx_val_of_single rfl i q
theorem rhs_dot_0 (i : S128x256.Idx) (q : dot_S128x5000_S5000x256_S128x256_1_0_0_1_n_n.contr.Idx) :
    (dot_S128x5000_S5000x256_S128x256_1_0_0_1_n_n.rhsIdx i q 0).val = (q ⟨0, by decide⟩).val :=
  dot_S128x5000_S5000x256_S128x256_1_0_0_1_n_n.rhsIdx_val_of_single rfl i q
theorem rhs_dot_1 (i : S128x256.Idx) (q : dot_S128x5000_S5000x256_S128x256_1_0_0_1_n_n.contr.Idx) :
    (dot_S128x5000_S5000x256_S128x256_1_0_0_1_n_n.rhsIdx i q 1).val = (i 1).val := by
  unfold DotDims.rhsIdx
  rw [dif_neg (show ¬(1 : Fin S5000x256.rank) ∈ dot_S128x5000_S5000x256_S128x256_1_0_0_1_n_n.rhsBatch by decide), dif_pos (show (1 : Fin S5000x256.rank) ∈ dot_S128x5000_S5000x256_S128x256_1_0_0_1_n_n.rhsNonContracting by decide)]
  rfl

/-- The 128 x 5000 by 5000 x 256 product into the zero accumulator, at (g, j): the sum over the 5000 rows. -/
theorem matmul_zero_apply (a : FVec Ideal S128x5000 .bf16) (w : FVec Ideal S5000x256 .bf16) (g : Fin 128) (j : Fin 256) :
    matmul (F := Ideal) dot_S128x5000_S5000x256_S128x256_1_0_0_1_n_n none a w (constant S128x256 .f32 0x00000000#32) (ix2 g j)
      = ∑ r : Fin 5000, a (ix2 g r) * w (ix2 r j) := by
  simp only [matmul]
  rw [Ideal.matmul_constant_zero_apply, ← Equiv.sum_comp (contrEquiv1 dot_S128x5000_S5000x256_S128x256_1_0_0_1_n_n 5000 rfl rfl).symm]
  refine Finset.sum_congr rfl fun k _ => ?_
  have hk := contrEquiv1_symm_val dot_S128x5000_S5000x256_S128x256_1_0_0_1_n_n 5000 rfl rfl k
  have el : dot_S128x5000_S5000x256_S128x256_1_0_0_1_n_n.lhsIdx (ix2 g j) ((contrEquiv1 dot_S128x5000_S5000x256_S128x256_1_0_0_1_n_n 5000 rfl rfl).symm k) = ix2 g k := funext fun b => Fin.ext (by
    match b with
    | ⟨0, _⟩ => exact lhs_dot_0 _ _
    | ⟨1, _⟩ => exact (lhs_dot_1 _ _).trans hk)
  have er : dot_S128x5000_S5000x256_S128x256_1_0_0_1_n_n.rhsIdx (ix2 g j) ((contrEquiv1 dot_S128x5000_S5000x256_S128x256_1_0_0_1_n_n 5000 rfl rfl).symm k) = ix2 k j := funext fun b => Fin.ext (by
    match b with
    | ⟨0, _⟩ => exact (rhs_dot_0 _ _).trans hk
    | ⟨1, _⟩ => exact rhs_dot_1 _ _)
  rw [el, er]

/-! ## What a chunk stores -/

theorem chunkPay_apply (oh : FVec Ideal S128x5000 .bf16) (nh : FVec Ideal S5000x256 .f32) (lin : Vec Ideal S1x256 .f32)
    (prev : Vec Ideal S1x128x256 .f32) (g : Fin 128) (j : Fin 256) :
    chunkPay (F := Ideal) oh nh lin prev (ix3 (0 : Fin 1) g j)
      = prev (ix3 (0 : Fin 1) g j) + ∑ r : Fin 5000, oh (ix2 g r) * Ideal.logistic (lin (ix2 (0 : Fin 1) j) - nh (ix2 r j)) := by
  unfold chunkPay
  refine (shapeCast_ab_1ab_apply _ shapeCasts_S128x256_S1x128x256 (0 : Fin 1) g j).trans ?_
  refine (addf_apply _ _ _).trans ?_
  refine congrArg₂ (· + ·) (shapeCast_1ab_ab_apply prev shapeCasts_S1x128x256_S128x256 g j) ?_
  refine (matmul_zero_apply oh _ g j).trans ?_
  refine Finset.sum_congr rfl fun r _ => ?_
  refine congrArg (oh (ix2 g r) * ·) ?_
  show Ideal.logistic (broadcastTo S5000x256 (shapeCast S1x256 lin shapeCasts_S1x256_S1x256) broadcasts_S1x256_S5000x256 (ix2 r j) - nh (ix2 r j)) = _
  rw [shapeCast_self, broadcastTo_1b_ab_apply]

/-! ## The indicator of the tile's graph numbers -/

/-- The one-bit equality test of two words, widened to 32 bits and read as a signed integer, is 1 when the words are
    equal and 0 otherwise. -/
theorem indicator_word (x y : BitVec 32) :
    ((((IntOp.cmpi .eq x y).setWidth 32).toInt : ℝ) : EReal) = if x = y then (1 : EReal) else 0 := by
  by_cases h : x = y
  · have e : IntOp.cmpi .eq x y = 1#1 := by simp [IntOp.cmpi, h]
    have e1 : ((1#1 : BitVec 1).setWidth 32).toInt = 1 := by decide
    rw [if_pos h, e, e1]; simp
  · have hb : (x == y) = false := beq_eq_false_iff_ne.2 h
    have e : IntOp.cmpi .eq x y = 0#1 := by simp [IntOp.cmpi, hb]
    have e0 : ((0#1 : BitVec 1).setWidth 32).toInt = 0 := by decide
    rw [if_neg h, e, e0]; simp

theorem onehot_apply (bb : Vec Ideal S5000x1 .i32) (g : Fin 128) (r : Fin 5000) :
    k0_pay2 (F := Ideal) bb (ix2 g r) = if bb (ix2 r (0 : Fin 1)) = BitVec.ofNat 32 g.val then (1 : EReal) else 0 := by
  unfold k0_pay2
  refine (transpose_ix2_apply _ transposes_S5000x128_p1_0_S128x5000 g r).trans ?_
  show ((((IntOp.cmpi .eq (broadcastTo S5000x128 (shapeCast S5000x1 bb shapeCasts_S5000x1_S5000x1) broadcasts_S5000x1_S5000x128 (ix2 r g))
      (iota .tc S5000x128 32 [1] iota_S5000x128_d1_w32 (ix2 r g))).setWidth 32).toInt : ℝ) : EReal) = _
  rw [shapeCast_self, Cert.LibColumn.broadcastTo_a1_ab_apply, iota_single_apply]
  exact indicator_word _ _

/-! ## The scaled heights -/

theorem heights_apply (v3 v4 v5 : Vec Ideal S5000x1 .f32) (v6 v7 v8 : Vec Ideal S1x64 .f32) (r : Fin 5000) (j : Fin 256) :
    k0_pay3 (F := Ideal) v3 v4 v5 v6 v7 v8 (ix2 r j)
      = Ideal.ofBits .f32 0x43FA0000#32
          * ((v3 (ix2 r (0 : Fin 1)) * v6 (ix2 (0 : Fin 1) (⟨j.val % 64, Nat.mod_lt _ (by decide)⟩ : Fin 64))
              + v4 (ix2 r (0 : Fin 1)) * v7 (ix2 (0 : Fin 1) (⟨j.val % 64, Nat.mod_lt _ (by decide)⟩ : Fin 64)))
            + v5 (ix2 r (0 : Fin 1)) * v8 (ix2 (0 : Fin 1) (⟨j.val % 64, Nat.mod_lt _ (by decide)⟩ : Fin 64))) := by
  unfold k0_pay3
  refine (concatenate_replicate_apply (t := S5000x256) (s₁ := S5000x64) 1 4 _
    concatenates_S5000x64_S5000x64_S5000x64_S5000x64_S5000x256_d1 rfl (ix2 r j)
    (ix2 r (⟨j.val % 64, Nat.mod_lt _ (by decide)⟩ : Fin 64)) rfl
    (fun b hb => match b, hb with
      | ⟨0, _⟩, _ => rfl
      | ⟨1, _⟩, hb => absurd rfl hb)).trans ?_
  show Ideal.ofBits .f32 0x43FA0000#32
      * ((broadcastTo S5000x64 v3 broadcasts_S5000x1_S5000x64 (ix2 r (⟨j.val % 64, Nat.mod_lt _ (by decide)⟩ : Fin 64))
            * broadcastTo S5000x64 v6 broadcasts_S1x64_S5000x64 (ix2 r (⟨j.val % 64, Nat.mod_lt _ (by decide)⟩ : Fin 64))
          + broadcastTo S5000x64 v4 broadcasts_S5000x1_S5000x64 (ix2 r (⟨j.val % 64, Nat.mod_lt _ (by decide)⟩ : Fin 64))
            * broadcastTo S5000x64 v7 broadcasts_S1x64_S5000x64 (ix2 r (⟨j.val % 64, Nat.mod_lt _ (by decide)⟩ : Fin 64)))
        + broadcastTo S5000x64 v5 broadcasts_S5000x1_S5000x64 (ix2 r (⟨j.val % 64, Nat.mod_lt _ (by decide)⟩ : Fin 64))
            * broadcastTo S5000x64 v8 broadcasts_S1x64_S5000x64 (ix2 r (⟨j.val % 64, Nat.mod_lt _ (by decide)⟩ : Fin 64))) = _
  simp only [Cert.LibColumn.broadcastTo_a1_ab_apply, broadcastTo_1b_ab_apply]

end Cert.KernelIdeal.Chunk

end
-- ==== Proof.PointValue.lean ====
/-
  The sixteen chunks' value at an index, over the extended reals: what the block held there plus the point's
  contribution (ChunkDef: pt); and the fill the first tile of a half starts from is zero everywhere.
-/
import proofs.«429855_j39994735461117_3_alg».proof.Proof.Pieces
import proofs.«429855_j39994735461117_3_alg».proof.Proof.Chunk
import Idealize.ShloMosaic.Lib.Pipeline.Value
import Idealize.ShloMosaic.Lib.ValueIdx
import Idealize.ShloMosaic.PureOps.Ideal.Laws

set_option maxRecDepth 16384

noncomputable section

namespace Cert.KernelIdeal.Pieces

open Cert.KernelIdeal Cert.KernelIdeal.Gen Cert.KernelIdeal.Chunk
open Idealize.ShloMosaic Idealize.ShloMosaic.TcCoe Idealize.ShloMosaic.ValueIdx Idealize.SL.Sem

/-- Column o of the 5000 x 3 block, loaded as a 5000 x 1 column, reads at (r, 0) the block at (r, o). -/
private theorem ld_col (x0 : Vec Ideal S5000x3 .f32) (o : ℕ)
    (inb : ∀ a, (![0, o] : Fin 2 → ℕ) a + S5000x1.size a ≤ S5000x3.size a) (r : Fin 5000) (k : Fin 3) (hk : k.val = o) :
    View.ld x0 (Rect.unit (s := S5000x3) ![0, o] S5000x1.size inb) (ix2 r (0 : Fin 1)) = x0 (ix2 r k) :=
  congrArg x0 (funext fun a => Fin.ext (by
    match a with
    | ⟨0, _⟩ => show 0 + 1 * r.val = r.val; omega
    | ⟨1, _⟩ => show o + 1 * 0 = k.val; omega))

/-- Row o of the 3 x 64 block, loaded as a 1 x 64 row, reads at (0, j) the block at (o, j). -/
private theorem ld_row (x1 : Vec Ideal S3x64 .f32) (o : ℕ)
    (inb : ∀ a, (![o, 0] : Fin 2 → ℕ) a + S1x64.size a ≤ S3x64.size a) (k : Fin 3) (hk : k.val = o)
    (j j' : Fin 64) (hj : j.val = j'.val) :
    View.ld x1 (Rect.unit (s := S3x64) ![o, 0] S1x64.size inb) (ix2 (0 : Fin 1) j) = x1 (ix2 k j') :=
  congrArg x1 (funext fun a => Fin.ext (by
    match a with
    | ⟨0, _⟩ => show o + 1 * 0 = k.val; omega
    | ⟨1, _⟩ => show 0 + 1 * j.val = j'.val; omega))

/-- The 2-axis zero offsets are the constant zero function. -/
private theorem hz2 : (![0, 0] : Fin 2 → ℕ) = fun _ => 0 := funext fun a => by
  match a with
  | ⟨0, _⟩ => rfl
  | ⟨1, _⟩ => rfl

theorem tileVal_apply (x0 : Vec Ideal S5000x3 .f32) (x1 : Vec Ideal S3x64 .f32) (x2 : Vec Ideal S16x256 .f32)
    (x3 : Vec Ideal S5000x1 .i32) (P : Vec Ideal S1x128x4096 .f32) (y : S1x128x4096.Idx) :
    tileVal (F := Ideal) (ohOf x3) (nhOf x0 x1) (linOf x2) P y = P y + pt x0 x1 x2 x3 y := by
  have hL : (y 2).val < 4096 := lane_lt y
  have h0 : (y 0).val < 1 := (y 0).isLt
  unfold tileVal
  refine (chunkPay_apply (ohOf x3) (nhOf x0 x1) (linOf x2 ((y 2).val / 256) (lane_div_lt y))
    (View.ld P (accRect ((y 2).val / 256) (lane_div_lt y))) (⟨(y 1).val, (y 1).isLt⟩ : Fin 128)
    (⟨(y 2).val % 256, Nat.mod_lt _ (by decide)⟩ : Fin 256)).trans ?_
  refine congrArg₂ (· + ·) ?_ ?_
  · refine congrArg P (funext fun a => Fin.ext ?_)
    match a with
    | ⟨0, _⟩ => show 0 + 1 * 0 = (y 0).val; omega
    | ⟨1, _⟩ => show 0 + 1 * (y 1).val = (y 1).val; omega
    | ⟨2, _⟩ => show 256 * ((y 2).val / 256) + 1 * ((y 2).val % 256) = (y 2).val; omega
  · unfold pt
    refine Finset.sum_congr rfl fun r _ => ?_
    refine congrArg₂ (· * ·) ?_ ?_
    · refine (onehot_apply _ _ r).trans ?_
      rw [View.ld_unit_zero (S := S5000x1) hz2]
    · refine congrArg Ideal.logistic ?_
      refine congrArg₂ (· - ·) ?_ ?_
      · refine congrArg x2 (funext fun a => Fin.ext ?_)
        match a with
        | ⟨0, _⟩ => show (y 2).val / 256 + 1 * 0 = (y 2).val / 256; omega
        | ⟨1, _⟩ => show 0 + 1 * ((y 2).val % 256) = (y 2).val % 256; omega
      · refine (heights_apply _ _ _ _ _ _ r _).trans ?_
        have hj : ((y 2).val % 256) % 64 = (y 2).val % 64 := by omega
        refine congrArg (Ideal.ofBits .f32 0x43FA0000#32 * ·) ?_
        refine congrArg₂ (· + ·) (congrArg₂ (· + ·) (congrArg₂ (· * ·) ?_ ?_) (congrArg₂ (· * ·) ?_ ?_)) (congrArg₂ (· * ·) ?_ ?_)
        · exact ld_col x0 0 _ r (0 : Fin 3) rfl
        · exact ld_row x1 0 _ (0 : Fin 3) rfl _ _ hj
        · exact ld_col x0 1 _ r (1 : Fin 3) rfl
        · exact ld_row x1 1 _ (1 : Fin 3) rfl _ _ hj
        · exact ld_col x0 2 _ r (2 : Fin 3) rfl
        · exact ld_row x1 2 _ (2 : Fin 3) rfl _ _ hj

theorem zero_fill (y : S1x128x4096.Idx) : k0_pay1 (F := Ideal) y = (0 : EReal) := by
  show Ideal.ofBits .f32 0x00000000#32 = (0 : EReal)
  exact Ideal.ofBits_zero_f32

end Cert.KernelIdeal.Pieces

end
-- ==== Proof.BlockDefs.lean ====
/-
  The four input blocks the body finds at a grid point, named at their literal types: the 5000 x 3 tile of x, the
  whole of v, the whole 16 x 256 scaled step table, and the 5000 x 1 tile of graph numbers.
-/
import proofs.«429855_j39994735461117_3_alg».proof.Proof.Gen.KernelIdeal.Frame
import Idealize.ShloMosaic.PureOps.Ideal

set_option maxRecDepth 16384

noncomputable section

namespace Cert.KernelIdeal.Blocks

open Cert.KernelIdeal Cert.KernelIdeal.Gen
open Idealize.ShloMosaic Idealize.ShloMosaic.TcCoe Idealize.SL.Sem

variable (m : (ℓ : Loc nD τ sig) → Buf (Elt Ideal) ℓ)

abbrev xblk (c : Dev nD) (t : Fin cfg0.N) : Vec Ideal S5000x3 .f32 := iblk m c 0 t
abbrev vblk (c : Dev nD) (t : Fin cfg0.N) : Vec Ideal S3x64 .f32 := iblk m c 1 t
abbrev lblk (c : Dev nD) (t : Fin cfg0.N) : Vec Ideal S16x256 .f32 := iblk m c 2 t
abbrev bblk (c : Dev nD) (t : Fin cfg0.N) : Vec Ideal S5000x1 .i32 := iblk m c 3 t

/-- Row r of tile t is a row of the 50000. -/
theorem tile_row_lt (t : Fin cfg0.N) (r : Fin 5000) : t.val * 5000 + r.val < 50000 := by
  have h : t.val < 10 := lt_of_lt_of_eq t.isLt N_0
  have := r.isLt
  omega

end Cert.KernelIdeal.Blocks

end
-- ==== Proof.Accum.lean ====
/-
  The accumulator block over the grid, and the kernel's output array.

  The ten grid points are two halves of five tiles. The accumulator block of a half starts from zero at the half's
  first tile and gains one tile's contribution (ChunkDef: pt) per point; it is written back to the half's slab of
  the 2 x 128 x 4096 output after the half's fifth tile. So slab sh of the output holds
  ((((0 + p(5 sh)) + p(5 sh + 1)) + p(5 sh + 2)) + p(5 sh + 3)) + p(5 sh + 4), p(t) the contribution of tile t.
-/
import proofs.«429855_j39994735461117_3_alg».proof.Proof.Pieces
import proofs.«429855_j39994735461117_3_alg».proof.Proof.PointValue
import proofs.«429855_j39994735461117_3_alg».proof.Proof.BlockDefs
import Idealize.ShloMosaic.Lib.Pipeline.Value
import Idealize.ShloMosaic.Lib.ValueIdx

set_option maxRecDepth 16384

noncomputable section

namespace Cert.KernelIdeal.Accum

open Cert.KernelIdeal Cert.KernelIdeal.Gen Cert.KernelIdeal.Chunk Cert.KernelIdeal.Pieces Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What tile t adds to the accumulator block. -/
def ptAt (c : Dev nD) (t : Fin cfg0.N) : S1x128x4096.Idx → EReal :=
  pt (xblk m c t) (vblk m c t) (lblk m c t) (bblk m c t)

/-- The accumulator block after point n: reset at the first tile of a half, else the block before plus the tile. -/
def acc (c : Dev nD) : (n : ℕ) → n < cfg0.N → S1x128x4096.Idx → EReal
  | 0, h => fun y => 0 + ptAt m c ⟨0, h⟩ y
  | n + 1, h =>
    if (n + 1) % 5 = 0 then fun y => 0 + ptAt m c ⟨n + 1, h⟩ y
    else fun y => acc c n (Nat.lt_of_succ_lt h) y + ptAt m c ⟨n + 1, h⟩ y

theorem acc_congr (c : Dev nD) (n n' : ℕ) (h : n < cfg0.N) (h' : n' < cfg0.N) (e : n = n')
    (y y' : S1x128x4096.Idx) (ey : y = y') : acc m c n h y = acc m c n' h' y' := by
  subst e; subst ey; rfl

/-- What the frame's run records in the output's staging buffer after point n is that block. -/
theorem outsAt_eq (c : Dev nD) : ∀ (n : ℕ) (h : n < cfg0.N), outsAt0 m c n h = acc m c n h
  | 0, h => by
    rw [outsAt0_A m c ⟨0, h⟩ rfl, out_A]
    funext y
    rw [tileVal_apply, zero_fill]
    rfl
  | n + 1, h => by
    by_cases h0 : (n + 1) % 5 = 0
    · rw [outsAt0_A m c ⟨n + 1, h⟩ h0, out_A]
      funext y
      rw [tileVal_apply, zero_fill, acc, if_pos h0]
      rfl
    · rw [outsAt0_B m c ⟨n + 1, h⟩ h0, out_B]
      funext y
      rw [tileVal_apply, acc, if_neg h0]
      show outsAt0 m c n _ y + _ = acc m c n _ y + _
      rw [outsAt_eq c n]
      rfl

/-! ## The output array -/

theorem shard_pt_lt (i : S2x128x4096.Idx) : 5 * (i 0).val + 4 < cfg0.N := by
  have h : (i 0).val < 2 := (i 0).isLt
  rw [show cfg0.N = 10 from N_0]; omega

/-- The kernel's output: slab sh holds the accumulator block after the half's fifth tile. -/
def A6 (c : Dev nD) : Vec Ideal S2x128x4096 .f32 := fun i =>
  acc m c (5 * (i 0).val + 4) (shard_pt_lt i)
    (ix3 (0 : Fin 1) (⟨(i 1).val, (i 1).isLt⟩ : Fin 128) (⟨(i 2).val, (i 2).isLt⟩ : Fin 4096))

theorem flushed_eq (c : Dev nD) (t : Fin cfg0.N) (hf : (cfg0.win 4).flush t = true) :
    (dats m 0 c).flushed 4 t = ((cfg0.win 4).blk t).view.read (Elt Ideal) (A6 m c) := by
  have h4 : t.val % 5 = 4 := (flush0_4 t).mp hf
  have ht : t = t0_4 ∨ t = t0_9 := by
    rcases fin_N0 t with rfl | rfl | rfl | rfl | rfl | rfl | rfl | rfl | rfl | rfl
    all_goals first | exact Or.inl rfl | exact Or.inr rfl | exact absurd h4 (by decide)
  rcases ht with rfl | rfl
  · show (cfg0.win 4).cut (grid0.coords t0_4) ((dats m 0 c).after 4 t0_4) = _
    rw [after0_4, outsAt_eq]
    funext y
    rw [View.read_apply]
    show acc m c t0_4.val _ ((cfg0.win 4).xinj (grid0.coords t0_4) y) = A6 m c (((cfg0.win 4).blk t0_4).view.emb y)
    have hy0 : (y 0).val < win0_4.xsize (grid0.coords t0_4) 0 := (y 0).isLt
    rw [show win0_4.xsize (grid0.coords t0_4) 0 = 1 from by decide +kernel] at hy0
    unfold A6
    refine acc_congr m c _ _ _ _ ?_ _ _ (funext fun a => ?_)
    · show t0_4.val = 5 * (win0_4.index t0_4 0 * win0_4.size 0 + 1 * (y 0).val) + 4
      rw [show win0_4.index t0_4 0 * win0_4.size 0 = 0 from by decide +kernel, show t0_4.val = 4 from rfl]; omega
    · match a with
      | ⟨0, _⟩ => exact Fin.ext (by show (y 0).val = 0; omega)
      | ⟨1, _⟩ =>
        exact Fin.ext (by
          show (y 1).val = win0_4.index t0_4 1 * win0_4.size 1 + 1 * (y 1).val
          rw [show win0_4.index t0_4 1 * win0_4.size 1 = 0 from by decide +kernel]; omega)
      | ⟨2, _⟩ =>
        exact Fin.ext (by
          show (y 2).val = win0_4.index t0_4 2 * win0_4.size 2 + 1 * (y 2).val
          rw [show win0_4.index t0_4 2 * win0_4.size 2 = 0 from by decide +kernel]; omega)
  · show (cfg0.win 4).cut (grid0.coords t0_9) ((dats m 0 c).after 4 t0_9) = _
    rw [after0_4, outsAt_eq]
    funext y
    rw [View.read_apply]
    show acc m c t0_9.val _ ((cfg0.win 4).xinj (grid0.coords t0_9) y) = A6 m c (((cfg0.win 4).blk t0_9).view.emb y)
    have hy0 : (y 0).val < win0_4.xsize (grid0.coords t0_9) 0 := (y 0).isLt
    rw [show win0_4.xsize (grid0.coords t0_9) 0 = 1 from by decide +kernel] at hy0
    unfold A6
    refine acc_congr m c _ _ _ _ ?_ _ _ (funext fun a => ?_)
    · show t0_9.val = 5 * (win0_4.index t0_9 0 * win0_4.size 0 + 1 * (y 0).val) + 4
      rw [show win0_4.index t0_9 0 * win0_4.size 0 = 1 from by decide +kernel, show t0_9.val = 9 from rfl]; omega
    · match a with
      | ⟨0, _⟩ => exact Fin.ext (by show (y 0).val = 0; omega)
      | ⟨1, _⟩ =>
        exact Fin.ext (by
          show (y 1).val = win0_4.index t0_9 1 * win0_4.size 1 + 1 * (y 1).val
          rw [show win0_4.index t0_9 1 * win0_4.size 1 = 0 from by decide +kernel]; omega)
      | ⟨2, _⟩ =>
        exact Fin.ext (by
          show (y 2).val = win0_4.index t0_9 2 * win0_4.size 2 + 1 * (y 2).val
          rw [show win0_4.index t0_9 2 * win0_4.size 2 = 0 from by decide +kernel]; omega)

/-- The two write-backs (after points 4 and 9) cover the two slabs, so the output array ends at A6. -/
theorem final6 (c : Dev nD) : (dats m 0 c).arrAt 4 cfg0.N = A6 m c :=
  (dats m 0 c).arrAt_eq_of_cover 4 (A6 m c) (flushed_eq m c) fun i => by
    have h0 : (i 0 : ℕ) < 2 := (i 0).isLt
    have h1 : (i 1 : ℕ) < 128 := (i 1).isLt
    have h2 : (i 2 : ℕ) < 4096 := (i 2).isLt
    rcases (by omega : (i 0 : ℕ) = 0 ∨ (i 0 : ℕ) = 1) with e | e
    ·
      refine ⟨t0_4, (flush0_4 t0_4).mpr rfl, ?_⟩
      show i ∈ ((View.whole main_v6).slice (win0_4.rect t0_4)).set
      rw [View.set_slice_whole, Rect.mem_set_unit]
      intro a
      match a with
      | ⟨0, _⟩ =>
        show win0_4.index t0_4 0 * win0_4.size 0 ≤ (i 0 : ℕ) ∧ (i 0 : ℕ) < win0_4.index t0_4 0 * win0_4.size 0 + win0_4.xsize (grid0.coords t0_4) 0
        rw [show win0_4.index t0_4 0 * win0_4.size 0 = 0 from by decide +kernel, show win0_4.xsize (grid0.coords t0_4) 0 = 1 from by decide +kernel]; omega
      | ⟨1, _⟩ =>
        show win0_4.index t0_4 1 * win0_4.size 1 ≤ (i 1 : ℕ) ∧ (i 1 : ℕ) < win0_4.index t0_4 1 * win0_4.size 1 + win0_4.xsize (grid0.coords t0_4) 1
        rw [show win0_4.index t0_4 1 * win0_4.size 1 = 0 from by decide +kernel, show win0_4.xsize (grid0.coords t0_4) 1 = 128 from by decide +kernel]; omega
      | ⟨2, _⟩ =>
        show win0_4.index t0_4 2 * win0_4.size 2 ≤ (i 2 : ℕ) ∧ (i 2 : ℕ) < win0_4.index t0_4 2 * win0_4.size 2 + win0_4.xsize (grid0.coords t0_4) 2
        rw [show win0_4.index t0_4 2 * win0_4.size 2 = 0 from by decide +kernel, show win0_4.xsize (grid0.coords t0_4) 2 = 4096 from by decide +kernel]; omega
    ·
      refine ⟨t0_9, (flush0_4 t0_9).mpr rfl, ?_⟩
      show i ∈ ((View.whole main_v6).slice (win0_4.rect t0_9)).set
      rw [View.set_slice_whole, Rect.mem_set_unit]
      intro a
      match a with
      | ⟨0, _⟩ =>
        show win0_4.index t0_9 0 * win0_4.size 0 ≤ (i 0 : ℕ) ∧ (i 0 : ℕ) < win0_4.index t0_9 0 * win0_4.size 0 + win0_4.xsize (grid0.coords t0_9) 0
        rw [show win0_4.index t0_9 0 * win0_4.size 0 = 1 from by decide +kernel, show win0_4.xsize (grid0.coords t0_9) 0 = 1 from by decide +kernel]; omega
      | ⟨1, _⟩ =>
        show win0_4.index t0_9 1 * win0_4.size 1 ≤ (i 1 : ℕ) ∧ (i 1 : ℕ) < win0_4.index t0_9 1 * win0_4.size 1 + win0_4.xsize (grid0.coords t0_9) 1
        rw [show win0_4.index t0_9 1 * win0_4.size 1 = 0 from by decide +kernel, show win0_4.xsize (grid0.coords t0_9) 1 = 128 from by decide +kernel]; omega
      | ⟨2, _⟩ =>
        show win0_4.index t0_9 2 * win0_4.size 2 ≤ (i 2 : ℕ) ∧ (i 2 : ℕ) < win0_4.index t0_9 2 * win0_4.size 2 + win0_4.xsize (grid0.coords t0_9) 2
        rw [show win0_4.index t0_9 2 * win0_4.size 2 = 0 from by decide +kernel, show win0_4.xsize (grid0.coords t0_9) 2 = 4096 from by decide +kernel]; omega

end Cert.KernelIdeal.Accum

end
-- ==== Proof.Blocks.lean ====
/-
  The four input blocks at a grid point, read at an index as entries of the argument arrays: tile t of x holds rows
  5000 t .. 5000 t + 4999; v is whole; the table's entry (q, j) is 500 times lin at step (256 q + j) / 64; tile t
  of the graph numbers holds entries 5000 t .. 5000 t + 4999 of batch.
-/
import proofs.«429855_j39994735461117_3_alg».proof.Proof.BlockDefs
import proofs.«429855_j39994735461117_3_alg».proof.Proof.LibColumn
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

theorem step_lt (q : Fin 16) (j : Fin 256) : (q.val * 256 + j.val) / 64 < 64 := by
  have := q.isLt; have := j.isLt; omega

/-! ## Which block of its array each window holds at a grid point

  The index maps of the tile of x and of the tile of graph numbers return the point's number on the row axis and 0 on
  the other; those of v and of the table return (0, 0). -/

private theorem idx0 : ∀ t : Fin cfg0.N, win0_0.index t 0 = t.val ∧ win0_0.index t 1 = 0 :=
  (by decide +kernel : ∀ t : Fin grid0.N, _)
private theorem idx1 : ∀ t : Fin cfg0.N, win0_1.index t 0 = 0 ∧ win0_1.index t 1 = 0 :=
  (by decide +kernel : ∀ t : Fin grid0.N, _)
private theorem idx2 : ∀ t : Fin cfg0.N, win0_2.index t 0 = 0 ∧ win0_2.index t 1 = 0 :=
  (by decide +kernel : ∀ t : Fin grid0.N, _)
private theorem idx3 : ∀ t : Fin cfg0.N, win0_3.index t 0 = t.val ∧ win0_3.index t 1 = 0 :=
  (by decide +kernel : ∀ t : Fin grid0.N, _)

/-- The scaled step table over any 64 steps L: its entry (q, j) sits at flat position 256 q + j, which in the 64 x 64
    array of L repeated along rows is row (256 q + j) / 64, so it is 500 times L at that step. -/
private theorem table_apply (L : S64.Idx → EReal) (q : Fin 16) (j : Fin 256) :
    shapeCast S16x256 (mulf (broadcastInDim S4096 ![] bcast_S_S4096 (constant (F := Ideal) S_ .f32 0x43FA0000#32))
        (shapeCast S4096 (broadcastInDim S64x64 ![0] bcast_S64_S64x64_0 L) shapeCasts_S64x64_S4096))
        shapeCasts_S4096_S16x256 (ix2 q j)
      = Ideal.ofBits .f32 0x43FA0000#32 * L (ix1 (⟨(q.val * 256 + j.val) / 64, step_lt q j⟩ : Fin 64)) := by
  have hq := q.isLt
  have hj := j.isLt
  have hp : q.val * 256 + j.val < 4096 := by omega
  have hb : (q.val * 256 + j.val) % 64 < 64 := Nat.mod_lt _ (by decide)
  rw [shapeCast_apply _ shapeCasts_S4096_S16x256 (ix2 q j) (ix1 (⟨q.val * 256 + j.val, hp⟩ : Fin 4096)) (by
      rw [Shape.rowMajor_val_one, Shape.rowMajor_val_two]; rfl)]
  rw [ValueIdx.mulf_apply]
  rw [broadcastInDim_apply _ bcast_S_S4096 _ _ (fun a => a.elim0) (fun a => a.elim0)]
  rw [shapeCast_apply _ shapeCasts_S64x64_S4096 (ix1 (⟨q.val * 256 + j.val, hp⟩ : Fin 4096))
      (ix2 (⟨(q.val * 256 + j.val) / 64, step_lt q j⟩ : Fin 64) (⟨(q.val * 256 + j.val) % 64, hb⟩ : Fin 64)) (by
      rw [Shape.rowMajor_val_one, Shape.rowMajor_val_two]
      show (q.val * 256 + j.val) / 64 * 64 + (q.val * 256 + j.val) % 64 = q.val * 256 + j.val
      omega)]
  rw [broadcastInDim_apply _ bcast_S64_S64x64_0 L _ (ix1 (⟨(q.val * 256 + j.val) / 64, step_lt q j⟩ : Fin 64)) (fun a => match a with
    | ⟨0, _⟩ => by show (q.val * 256 + j.val) / 64 = if (64 : Nat) = 1 then 0 else (q.val * 256 + j.val) / 64; rw [if_neg (by decide)])]
  rfl

/-! ## The four blocks at an index -/

theorem xblk_apply (c : Dev nD) (t : Fin cfg0.N) (r : Fin 5000) (k : Fin 3) :
    xblk m c t (ix2 r k) = m ((c : Thread nD τ).loc main_arg0) (ix2 (⟨t.val * 5000 + r.val, tile_row_lt t r⟩ : Fin 50000) k) := by
  show iblk m c 0 t (ix2 r k) = _
  unfold iblk
  rw [View.read_apply]
  show V m c main_arg0 _ = _
  rw [V_main_arg0 m c]
  congr 1
  funext a
  apply Fin.ext
  match a with
  | ⟨0, _⟩ => show win0_0.index t 0 * 5000 + 1 * r.val = t.val * 5000 + r.val; rw [(idx0 t).1]; omega
  | ⟨1, _⟩ => show win0_0.index t 1 * 3 + 1 * k.val = k.val; rw [(idx0 t).2]; omega

theorem vblk_apply (c : Dev nD) (t : Fin cfg0.N) (k : Fin 3) (j : Fin 64) :
    vblk m c t (ix2 k j) = m ((c : Thread nD τ).loc main_arg1) (ix2 k j) := by
  show iblk m c 1 t (ix2 k j) = _
  unfold iblk
  rw [View.read_apply]
  show V m c main_arg1 _ = _
  rw [V_main_arg1 m c]
  congr 1
  funext a
  apply Fin.ext
  match a with
  | ⟨0, _⟩ => show win0_1.index t 0 * 3 + 1 * k.val = k.val; rw [(idx1 t).1]; omega
  | ⟨1, _⟩ => show win0_1.index t 1 * 64 + 1 * j.val = j.val; rw [(idx1 t).2]; omega

theorem lblk_apply (c : Dev nD) (t : Fin cfg0.N) (q : Fin 16) (j : Fin 256) :
    lblk m c t (ix2 q j)
      = Ideal.ofBits .f32 0x43FA0000#32 * m ((c : Thread nD τ).loc main_arg2) (ix1 (⟨(q.val * 256 + j.val) / 64, step_lt q j⟩ : Fin 64)) := by
  have e : (V m c main_v5 : S16x256.Idx → EReal)
      = shapeCast S16x256 (mulf (broadcastInDim S4096 ![] bcast_S_S4096 (constant (F := Ideal) S_ .f32 0x43FA0000#32))
          (shapeCast S4096 (broadcastInDim S64x64 ![0] bcast_S64_S64x64_0 (m ((c : Thread nD τ).loc main_arg2))) shapeCasts_S64x64_S4096))
          shapeCasts_S4096_S16x256 := by
    show StableHlo.after hostOps0 (fun b => m (c, b)) (Proc.devRef .tc main_v5) = _
    after_results
    rfl
  have hemb : ((cfg0.win 2).blk t).view.emb (ix2 q j) = ix2 q j := funext fun a => Fin.ext (by
    match a with
    | ⟨0, _⟩ => show win0_2.index t 0 * 16 + 1 * q.val = q.val; rw [(idx2 t).1]; omega
    | ⟨1, _⟩ => show win0_2.index t 1 * 256 + 1 * j.val = j.val; rw [(idx2 t).2]; omega)
  show iblk m c 2 t (ix2 q j) = _
  unfold iblk
  rw [View.read_apply]
  show V m c main_v5 _ = _
  rw [e, hemb]
  exact table_apply (m ((c : Thread nD τ).loc main_arg2)) q j

theorem bblk_apply (c : Dev nD) (t : Fin cfg0.N) (r : Fin 5000) :
    bblk m c t (ix2 r (0 : Fin 1)) = m ((c : Thread nD τ).loc main_arg3) (ix1 (⟨t.val * 5000 + r.val, tile_row_lt t r⟩ : Fin 50000)) := by
  have e : (V m c main_v0 : S50000x1.Idx → BitVec 32) = shapeCast S50000x1 (m ((c : Thread nD τ).loc main_arg3)) shapeCasts_S50000_S50000x1 := by
    show StableHlo.after hostOps0 (fun b => m (c, b)) (Proc.devRef .tc main_v0) = _
    after_results
    rfl
  have hemb : ((cfg0.win 3).blk t).view.emb (ix2 r (0 : Fin 1)) = ix2 (⟨t.val * 5000 + r.val, tile_row_lt t r⟩ : Fin 50000) (0 : Fin 1) :=
    funext fun a => Fin.ext (by
      match a with
      | ⟨0, _⟩ => show win0_3.index t 0 * 5000 + 1 * r.val = t.val * 5000 + r.val; rw [(idx3 t).1]; omega
      | ⟨1, _⟩ => show win0_3.index t 1 * 1 + 1 * 0 = 0; rw [(idx3 t).2])
  show iblk m c 3 t (ix2 r (0 : Fin 1)) = _
  unfold iblk
  rw [View.read_apply]
  show V m c main_v0 _ = _
  rw [e, hemb]
  exact Cert.LibColumn.shapeCast_a_a1_apply _ shapeCasts_S50000_S50000x1 _ _

end Cert.KernelIdeal.Blocks

end
-- ==== Proof.Tail.lean ====
/-
  The host operations after the kernel: the two halves' partial results are added (from zero), and the 128 x 4096
  sum is viewed as 128 x 64 x 64, lane 64 s + t becoming entry (s, t).
-/
import proofs.«429855_j39994735461117_3_alg».proof.Proof.Gen.KernelIdeal.Frame
import Idealize.ShloMosaic.PureOps.Ideal
import Idealize.ShloMosaic.PureOps.Ideal.Laws
import Idealize.ShloMosaic.Lib.Pipeline.Value
import Idealize.ShloMosaic.Lib.ValueIdx
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

theorem lane_lt (s t : Fin 64) : 64 * s.val + t.val < 4096 := by
  have := s.isLt; have := t.isLt; omega

/-- After the three host operations the result array is the sum over the two halves (from zero) of the kernel's
    output array, viewed as 128 x 64 x 64. -/
private theorem tail_eq (c : Dev nD) (A6 : Vec Ideal S2x128x4096 .f32)
    (hA : (dats m 0 c).arrAt 4 cfg0.N = A6) :
    Pipeline.afterTail₀ cfgs (dats m) 0 (V0 m) [hostOps1] c main_v8
      = shapeCast S128x64x64 (Host.reduceAdd A6 (constant S_ .f32 0x00000000#32 (F := Ideal)) reducesTo_S2x128x4096_S128x4096_d0 h_S_) shapeCasts_S128x4096_S128x64x64 := by
  have hW : Pipeline.withArrays (cfgs 0).spec c (V0 m c) (fun w => (dats m 0 c).arrAt w (cfgs 0).N) (Proc.devRef .tc main_v6) = A6 :=
    (Pipeline.withArrays_arr spec0 launch0.win.arr_inj c _ _ 4).trans hA
  unfold Pipeline.afterTail₀
  show StableHlo.after hostOps1 _ (Proc.devRef .tc main_v8) = _
  after_results
  rw [hW]
  rfl

/-- Entry (g, s, t) of the 128 x 64 x 64 view is entry (g, 64 s + t) of the 128 x 4096 array: both have the
    row-major position 4096 g + 64 s + t. -/
private theorem reshape_apply (x : S128x4096.Idx → Ideal .f32) (g : Fin 128) (s t : Fin 64) :
    shapeCast S128x64x64 x shapeCasts_S128x4096_S128x64x64 (ix3 g s t)
      = x (ix2 g (⟨64 * s.val + t.val, lane_lt s t⟩ : Fin 4096)) := by
  refine shapeCast_apply x _ (ix3 g s t) (ix2 g (⟨64 * s.val + t.val, lane_lt s t⟩ : Fin 4096)) ?_
  rw [Shape.rowMajor_val_two, Shape.rowMajor_val_three]
  show g.val * 4096 + (64 * s.val + t.val) = (g.val * 64 + s.val) * 64 + t.val
  omega

/-- Putting the coordinate k back on the leading axis of (g, l) gives (k, g, l). -/
private theorem lift_eq (hr : S2x128x4096.Reduces [0] S128x4096) (g : Fin 128) (l : Fin 4096) (k : Fin 2) :
    hr.lift (ix2 g l) k = ix3 k g l := by
  funext a
  match a with
  | ⟨0, _⟩ => exact Fin.ext rfl
  | ⟨1, _⟩ => exact Fin.ext rfl
  | ⟨2, _⟩ => exact Fin.ext rfl

/-- The sum over the leading axis of size two, from zero, at (g, l): 0 + (A (0, g, l) + A (1, g, l)). -/
private theorem hsum_apply (A : S2x128x4096.Idx → Ideal .f32) (g : Fin 128) (l : Fin 4096) :
    Host.reduceAdd A (constant S_ .f32 0x00000000#32 (F := Ideal)) reducesTo_S2x128x4096_S128x4096_d0 h_S_ (ix2 g l)
      = A (ix3 (0 : Fin 2) g l) + A (ix3 (1 : Fin 2) g l) := by
  have hr : S2x128x4096.Reduces [0] S128x4096 := by decide
  show Ideal.hostReduceAdd reducesTo_S2x128x4096_S128x4096_d0 A (Ideal.ofBits .f32 0x00000000#32) (ix2 g l) = _
  rw [Ideal.hostReduceAdd_single reducesTo_S2x128x4096_S128x4096_d0 hr, Ideal.ofBits_zero_f32, zero_add]
  show ∑ k : Fin 2, A (hr.lift (ix2 g l) k) = _
  rw [Fin.sum_univ_two, lift_eq, lift_eq]

theorem tail_apply (c : Dev nD) (A6 : Vec Ideal S2x128x4096 .f32)
    (hA : (dats m 0 c).arrAt 4 cfg0.N = A6) (g : Fin 128) (s t : Fin 64) :
    Pipeline.afterTail₀ cfgs (dats m) 0 (V0 m) [hostOps1] c main_v8 (ix3 g s t)
      = A6 (ix3 (0 : Fin 2) g (⟨64 * s.val + t.val, lane_lt s t⟩ : Fin 4096))
        + A6 (ix3 (1 : Fin 2) g (⟨64 * s.val + t.val, lane_lt s t⟩ : Fin 4096)) := by
  refine (congrFun (tail_eq m c A6 hA) (ix3 g s t)).trans ?_
  rw [reshape_apply, hsum_apply]

end Cert.KernelIdeal.Tail

end
-- ==== Proof.Spec.lean ====
/-
  The two programs as functions of the four argument arrays, index by index, over the extended reals.

  A node n has heights h(n, t) = sum over the three features k of x[n, k] * v[k, t]. Its bump at step s and
  direction t is the logistic function of 500 * (lin[s] - h(n, t)). The result at (g, s, t) is the sum of the
  bumps of the nodes whose graph number batch[n], read as a signed integer, is g; a node whose number lies
  outside 0 .. 127 contributes to no entry.

  The reference spells the argument of the logistic function as 500 * (lin[s] - h(n, t)) with the height a sum
  over k (G). The kernel spells it 500 * lin[s] - 500 * ((x0 v0 + x1 v1) + x2 v2), selects the nodes of a graph
  by a product with an indicator, and adds the nodes up in two halves of five tiles of five thousand rows (K).
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![50000, 3]⟩
abbrev SV : Shape := ⟨2, ![3, 64]⟩
abbrev SL : Shape := ⟨1, ![64]⟩
abbrev SB : Shape := ⟨1, ![50000]⟩
abbrev SO : Shape := ⟨3, ![128, 64, 64]⟩

/-- The sharpness 500, as the f32 word both programs carry. -/
abbrev c500 : EReal := Ideal.ofBits .f32 0x43FA0000#32

/-- A node's bump as the reference writes it. -/
def bumpR (X : SX.Idx → EReal) (Vv : SV.Idx → EReal) (Ln : SL.Idx → EReal) (n : Fin 50000) (s t : Fin 64) : EReal :=
  Ideal.logistic (c500 * (Ln (ix1 s) - ∑ k : Fin 3, X (ix2 n k) * Vv (ix2 k t)))

/-- A node's bump as the kernel writes it. -/
def bumpK (X : SX.Idx → EReal) (Vv : SV.Idx → EReal) (Ln : SL.Idx → EReal) (n : Fin 50000) (s t : Fin 64) : EReal :=
  Ideal.logistic (c500 * Ln (ix1 s)
    - c500 * ((X (ix2 n (0 : Fin 3)) * Vv (ix2 (0 : Fin 3) t) + X (ix2 n (1 : Fin 3)) * Vv (ix2 (1 : Fin 3) t))
        + X (ix2 n (2 : Fin 3)) * Vv (ix2 (2 : Fin 3) t)))

/-- Row r of tile p of half sh, as a node number. -/
def row (sh : Fin 2) (p : Fin 5) (r : Fin 5000) : Fin 50000 :=
  ⟨(sh.val * 5 + p.val) * 5000 + r.val, by have := sh.isLt; have := p.isLt; have := r.isLt; omega⟩

/-- The reference's result. -/
def G (X : SX.Idx → EReal) (Vv : SV.Idx → EReal) (Ln : SL.Idx → EReal) (Bt : SB.Idx → BitVec 32) : SO.Idx → EReal :=
  fun i => ∑ n : Fin 50000, if (Bt (ix1 n)).toInt = ((i 0).val : ℤ) then bumpR X Vv Ln n (i 1) (i 2) else 0

/-- The kernel's result. -/
def K (X : SX.Idx → EReal) (Vv : SV.Idx → EReal) (Ln : SL.Idx → EReal) (Bt : SB.Idx → BitVec 32) : SO.Idx → EReal :=
  fun i => ∑ sh : Fin 2, ∑ p : Fin 5, ∑ r : Fin 5000,
    (if Bt (ix1 (row sh p r)) = BitVec.ofNat 32 (i 0).val then (1 : EReal) else 0) * bumpK X Vv Ln (row sh p r) (i 1) (i 2)

end Cert.Spec

end
-- ==== Proof.KernelRun.lean ====
/-
  The kernel's result as a function of the argument arrays.

  A tile's contribution at (0, g, 64 s + t) is the sum over the tile's rows of [batch row = g] times the kernel's
  bump of that row at (s, t): the tile's blocks are read as entries of x, v, lin and batch, the table's entry at
  lane 64 s + t is 500 lin[s], and the direction at that lane is t. A half's slab is the sum of its five tiles'
  contributions, and the result at (g, s, t) is the sum of the two halves' slabs at lane 64 s + t: Spec.K.
-/
import proofs.«429855_j39994735461117_3_alg».proof.Proof.Accum
import proofs.«429855_j39994735461117_3_alg».proof.Proof.Blocks
import proofs.«429855_j39994735461117_3_alg».proof.Proof.Tail
import proofs.«429855_j39994735461117_3_alg».proof.Proof.Spec
import Idealize.ShloMosaic.Lib.Pipeline.Value
import Idealize.ShloMosaic.Lib.ValueIdx
import Mathlib.Algebra.BigOperators.Fin

set_option maxRecDepth 16384

noncomputable section

namespace Cert.KernelIdeal.Run

open Cert.KernelIdeal Cert.KernelIdeal.Gen Cert.KernelIdeal.Chunk Cert.KernelIdeal.Blocks Cert.KernelIdeal.Accum
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The four argument arrays on core c. -/
abbrev argX (c : Dev nD) : Cert.Spec.SX.Idx → EReal := m ((c : Thread nD τ).loc main_arg0)
abbrev argV (c : Dev nD) : Cert.Spec.SV.Idx → EReal := m ((c : Thread nD τ).loc main_arg1)
abbrev argL (c : Dev nD) : Cert.Spec.SL.Idx → EReal := m ((c : Thread nD τ).loc main_arg2)
abbrev argB (c : Dev nD) : Cert.Spec.SB.Idx → BitVec 32 := m ((c : Thread nD τ).loc main_arg3)

/-- One row's term of Spec.K. -/
abbrev term (c : Dev nD) (g : Fin 128) (s t : Fin 64) (sh : Fin 2) (p : Fin 5) (r : Fin 5000) : EReal :=
  (if argB m c (ix1 (Cert.Spec.row sh p r)) = BitVec.ofNat 32 g.val then (1 : EReal) else 0)
    * Cert.Spec.bumpK (argX m c) (argV m c) (argL m c) (Cert.Spec.row sh p r) s t

/-- Tile 5 sh + p's contribution at row g, lane 64 s + t of the block. -/
theorem ptAt_apply (c : Dev nD) (T : Fin cfg0.N) (sh : Fin 2) (p : Fin 5) (hT : T.val = sh.val * 5 + p.val)
    (g : Fin 128) (s t : Fin 64) (y : S1x128x4096.Idx) (hg : (y 1).val = g.val) (hL : (y 2).val = 64 * s.val + t.val) :
    ptAt m c T y = ∑ r : Fin 5000, term m c g s t sh p r := by
  have hs := s.isLt
  have ht := t.isLt
  unfold ptAt pt
  refine Finset.sum_congr rfl fun r _ => ?_
  have hb : bblk m c T (ix2 r (0 : Fin 1)) = argB m c (ix1 (Cert.Spec.row sh p r)) :=
    (bblk_apply m c T r).trans (congrArg (fun z => argB m c (ix1 z))
      (Fin.ext (by show T.val * 5000 + r.val = (sh.val * 5 + p.val) * 5000 + r.val; rw [hT])))
  have hx : ∀ k : Fin 3, xblk m c T (ix2 r k) = argX m c (ix2 (Cert.Spec.row sh p r) k) := fun k =>
    (xblk_apply m c T r k).trans (congrArg (fun z => argX m c (ix2 z k))
      (Fin.ext (by show T.val * 5000 + r.val = (sh.val * 5 + p.val) * 5000 + r.val; rw [hT])))
  have hv : ∀ k : Fin 3, vblk m c T (ix2 k (⟨(y 2).val % 64, Nat.mod_lt _ (by decide)⟩ : Fin 64)) = argV m c (ix2 k t) := fun k =>
    (vblk_apply m c T k _).trans (congrArg (fun z => argV m c (ix2 k z))
      (Fin.ext (by show (y 2).val % 64 = t.val; omega)))
  have hl : lblk m c T (ix2 (⟨(y 2).val / 256, by have h : (y 2).val < 4096 := (y 2).isLt; omega⟩ : Fin 16)
        (⟨(y 2).val % 256, Nat.mod_lt _ (by decide)⟩ : Fin 256))
      = Ideal.ofBits .f32 0x43FA0000#32 * argL m c (ix1 s) :=
    (lblk_apply m c T _ _).trans (congrArg (fun z => Ideal.ofBits .f32 0x43FA0000#32 * argL m c (ix1 z))
      (Fin.ext (by show ((y 2).val / 256 * 256 + (y 2).val % 256) / 64 = s.val; omega)))
  rw [hb, hl, hx 0, hx 1, hx 2, hv 0, hv 1, hv 2, hg]
  rfl

theorem lane_lt (s t : Fin 64) : 64 * s.val + t.val < 4096 := by
  have := s.isLt; have := t.isLt; omega

/-- Slab sh of the output at row g, lane 64 s + t: the five tiles' contributions. -/
theorem A6_apply (c : Dev nD) (sh : Fin 2) (g : Fin 128) (s t : Fin 64) :
    A6 m c (ix3 sh g (⟨64 * s.val + t.val, lane_lt s t⟩ : Fin 4096)) = ∑ p : Fin 5, ∑ r : Fin 5000, term m c g s t sh p r := by
  have hN : cfg0.N = 10 := N_0
  rw [Fin.sum_univ_five]
  match sh with
  | ⟨0, hsh⟩ =>
    have e : A6 m c (ix3 (⟨0, hsh⟩ : Fin 2) g (⟨64 * s.val + t.val, lane_lt s t⟩ : Fin 4096))
        = ((((0 + ptAt m c ⟨0, by omega⟩ (ix3 (0 : Fin 1) g (⟨64 * s.val + t.val, lane_lt s t⟩ : Fin 4096)))
            + ptAt m c ⟨1, by omega⟩ (ix3 (0 : Fin 1) g (⟨64 * s.val + t.val, lane_lt s t⟩ : Fin 4096)))
            + ptAt m c ⟨2, by omega⟩ (ix3 (0 : Fin 1) g (⟨64 * s.val + t.val, lane_lt s t⟩ : Fin 4096)))
            + ptAt m c ⟨3, by omega⟩ (ix3 (0 : Fin 1) g (⟨64 * s.val + t.val, lane_lt s t⟩ : Fin 4096)))
            + ptAt m c ⟨4, by omega⟩ (ix3 (0 : Fin 1) g (⟨64 * s.val + t.val, lane_lt s t⟩ : Fin 4096)) := rfl
    rw [e, zero_add,
      ptAt_apply m c ⟨0, by omega⟩ ⟨0, hsh⟩ 0 rfl g s t _ rfl rfl,
      ptAt_apply m c ⟨1, by omega⟩ ⟨0, hsh⟩ 1 rfl g s t _ rfl rfl,
      ptAt_apply m c ⟨2, by omega⟩ ⟨0, hsh⟩ 2 rfl g s t _ rfl rfl,
      ptAt_apply m c ⟨3, by omega⟩ ⟨0, hsh⟩ 3 rfl g s t _ rfl rfl,
      ptAt_apply m c ⟨4, by omega⟩ ⟨0, hsh⟩ 4 rfl g s t _ rfl rfl]
  | ⟨1, hsh⟩ =>
    have e : A6 m c (ix3 (⟨1, hsh⟩ : Fin 2) g (⟨64 * s.val + t.val, lane_lt s t⟩ : Fin 4096))
        = ((((0 + ptAt m c ⟨5, by omega⟩ (ix3 (0 : Fin 1) g (⟨64 * s.val + t.val, lane_lt s t⟩ : Fin 4096)))
            + ptAt m c ⟨6, by omega⟩ (ix3 (0 : Fin 1) g (⟨64 * s.val + t.val, lane_lt s t⟩ : Fin 4096)))
            + ptAt m c ⟨7, by omega⟩ (ix3 (0 : Fin 1) g (⟨64 * s.val + t.val, lane_lt s t⟩ : Fin 4096)))
            + ptAt m c ⟨8, by omega⟩ (ix3 (0 : Fin 1) g (⟨64 * s.val + t.val, lane_lt s t⟩ : Fin 4096)))
            + ptAt m c ⟨9, by omega⟩ (ix3 (0 : Fin 1) g (⟨64 * s.val + t.val, lane_lt s t⟩ : Fin 4096)) := by
      show acc m c 9 (by omega) (ix3 (0 : Fin 1) g (⟨64 * s.val + t.val, lane_lt s t⟩ : Fin 4096)) = _
      rw [acc, if_neg (by decide), acc, if_neg (by decide), acc, if_neg (by decide), acc, if_neg (by decide), acc,
        if_pos (by decide)]
    rw [e, zero_add,
      ptAt_apply m c ⟨5, by omega⟩ ⟨1, hsh⟩ 0 rfl g s t _ rfl rfl,
      ptAt_apply m c ⟨6, by omega⟩ ⟨1, hsh⟩ 1 rfl g s t _ rfl rfl,
      ptAt_apply m c ⟨7, by omega⟩ ⟨1, hsh⟩ 2 rfl g s t _ rfl rfl,
      ptAt_apply m c ⟨8, by omega⟩ ⟨1, hsh⟩ 3 rfl g s t _ rfl rfl,
      ptAt_apply m c ⟨9, by omega⟩ ⟨1, hsh⟩ 4 rfl g s t _ rfl rfl]

/-- The result array the host tail leaves is Spec.K of the argument arrays. -/
theorem kernel_value (c : Dev nD) :
    Pipeline.afterTail₀ cfgs (dats m) 0 (V0 m) [hostOps1] c main_v8 = Cert.Spec.K (argX m c) (argV m c) (argL m c) (argB m c) := by
  funext i
  obtain ⟨g, s, t, rfl⟩ : ∃ (g : Fin 128) (s t : Fin 64), i = ix3 g s t := ⟨i 0, i 1, i 2, eq_ix3 i⟩
  rw [Cert.KernelIdeal.Tail.tail_apply m c (A6 m c) (final6 m c) g s t, A6_apply, A6_apply]
  unfold Cert.Spec.K
  rw [Fin.sum_univ_two]

/-- The kernel's run, read: every weakly fair execution terminates with the result array at Spec.K of the
    argument arrays and the arguments unchanged. -/
theorem kernel_run : θ_run defs (onTc (τ := τ) (main (F := Ideal))) ⟨m, fun _ => 0, ρ⟩ (fun r => ∀ c : Dev nD,
      r.2.mem ((c.tc : Thread nD τ).loc main_v8) = Cert.Spec.K (argX m c) (argV m c) (argL m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (kernel_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefValue.lean ====
/-
  The reference's result, index by index, is the function G of the shared specification.

  The reference's last operation adds rows of a 50000 x 64 x 64 array of updates into a 128 x 64 x 64 array of zeros.
  Over the extended reals its value at (g, s, t) is zero plus the sum of the updates whose landing place is (g, s, t).
  For this operation's dimension numbers the update at (n, a, b) starts, on the first axis, at the signed reading of the
  index array at (n, 0) and has no window coordinate there; on the other two axes it starts at zero and its window
  coordinates are a and b. So it lands at (g, s, t) exactly when that signed reading is g, a = s and b = t, and an update
  whose reading is outside 0 .. 127 lands nowhere. The sum over all (n, a, b) that land at (g, s, t) is then the sum over
  the nodes n of the update at (n, s, t) where the reading of n is g, and of zero elsewhere.

  The update at (n, s, t), read down the reference's elementwise operations, is 1 / (1 + exp (-(500 * (lin[s] - h(n, t)))))
  with h(n, t) the sum over the three features k of x[n, k] * v[k, t]: the logistic function of that argument.
-/
import proofs.«429855_j39994735461117_3_alg».proof.Proof.Gen.ReferenceIdeal.Read
import proofs.«429855_j39994735461117_3_alg».proof.Proof.Spec
import Idealize.ShloMosaic.PureOps.Dims
import Idealize.ShloMosaic.PureOps.Ideal
import Idealize.ShloMosaic.PureOps.Ideal.Laws
import Idealize.ShloMosaic.Lib.IdealHost
import Idealize.ShloMosaic.Lib.ValueIdx
import Mathlib.Algebra.BigOperators.Group.Finset.Basic
import Mathlib.Data.Fintype.BigOperators

noncomputable section

namespace Cert.RefValue

open Cert.ReferenceIdeal Cert.ReferenceIdeal.Gen Idealize.ShloMosaic Idealize.ShloMosaic.ValueIdx
open scoped BigOperators

/-- The scatter's dimension numbers: the updates' axes 1 and 2 are window axes, the operand's axis 0 is the one the
    indices name, and each index vector has one component. -/
abbrev sd : ScatterDims S128x64x64 S50000x1 S50000x64x64 := scatter_S128x64x64_S50000x1_S50000x64x64_12_0_0_1

/-! ## Where an update lands -/

/-- Operand axis 0 is an inserted axis: no window coordinate. -/
theorem window_0 (j : S50000x64x64.Idx) : sd.window j 0 = 0 := by
  unfold ScatterDims.window
  rw [dif_neg (show ¬(0 : Fin S128x64x64.rank) ∈ sd.sKept by decide)]

/-- Operand axis 1 takes the update's coordinate on its axis 1. -/
theorem window_1 (j : S50000x64x64.Idx) : sd.window j 1 = (j 1).val := by
  unfold ScatterDims.window
  rw [dif_pos (show (1 : Fin S128x64x64.rank) ∈ sd.sKept by decide)]
  rfl

/-- Operand axis 2 takes the update's coordinate on its axis 2. -/
theorem window_2 (j : S50000x64x64.Idx) : sd.window j 2 = (j 2).val := by
  unfold ScatterDims.window
  rw [dif_pos (show (2 : Fin S128x64x64.rank) ∈ sd.sKept by decide)]
  rfl

/-- The indices name no start on operand axis 1. -/
theorem start_1 (j : S50000x64x64.Idx) (idx : IVec S50000x1 32) : sd.start j idx 1 = 0 := by
  unfold ScatterDims.start
  rw [dif_neg (show ¬(1 : Fin S128x64x64.rank) ∈ sd.scatterDimsToOperandDims by decide)]

/-- The indices name no start on operand axis 2. -/
theorem start_2 (j : S50000x64x64.Idx) (idx : IVec S50000x1 32) : sd.start j idx 2 = 0 := by
  unfold ScatterDims.start
  rw [dif_neg (show ¬(2 : Fin S128x64x64.rank) ∈ sd.scatterDimsToOperandDims by decide)]

/-- On operand axis 0 the start is the signed reading of the index array at (row of the update, 0). -/
theorem start_0 (j : S50000x64x64.Idx) (idx : IVec S50000x1 32) :
    sd.start j idx 0 = (idx (ix2 (j 0) (0 : Fin 1))).toInt := by
  unfold ScatterDims.start
  rw [dif_pos (show (0 : Fin S128x64x64.rank) ∈ sd.scatterDimsToOperandDims by decide)]
  congr 2
  funext b
  match b with
  | ⟨0, _⟩ => rfl
  | ⟨1, _⟩ => rfl

/-- Update index (n, a, b) lands in the operand exactly at (the signed index of row n, a, b). -/
theorem resultIdx_iff (j : S50000x64x64.Idx) (idx : IVec S50000x1 32) (i : S128x64x64.Idx) :
    sd.resultIdx? j idx = some i ↔
      (idx (ix2 (j 0) (0 : Fin 1))).toInt = ((i 0).val : ℤ) ∧ j 1 = i 1 ∧ j 2 = i 2 := by
  have i0 : (i 0).val < 128 := (i 0).isLt
  have i1 : (i 1).val < 64 := (i 1).isLt
  have i2 : (i 2).val < 64 := (i 2).isLt
  have j1 : (j 1).val < 64 := (j 1).isLt
  have j2 : (j 2).val < 64 := (j 2).isLt
  have e0 : sd.start j idx 0 + sd.window j 0 = (idx (ix2 (j 0) (0 : Fin 1))).toInt := by
    rw [start_0, window_0]; simp
  have e1 : sd.start j idx 1 + sd.window j 1 = ((j 1).val : ℤ) := by
    rw [start_1, window_1]; simp
  have e2 : sd.start j idx 2 + sd.window j 2 = ((j 2).val : ℤ) := by
    rw [start_2, window_2]; simp
  unfold ScatterDims.resultIdx?
  constructor
  · intro h
    by_cases hb : ∀ a, 0 ≤ sd.start j idx a + sd.window j a ∧ sd.start j idx a + sd.window j a < S128x64x64.size a
    · rw [dif_pos hb] at h
      have hi := Option.some.inj h
      have h0 : (sd.start j idx 0 + sd.window j 0).toNat = (i 0).val := congrArg (fun f => (f 0).val) hi
      have h1 : (sd.start j idx 1 + sd.window j 1).toNat = (i 1).val := congrArg (fun f => (f 1).val) hi
      have h2 : (sd.start j idx 2 + sd.window j 2).toNat = (i 2).val := congrArg (fun f => (f 2).val) hi
      have b0 := (hb 0).1
      rw [e0] at h0 b0; rw [e1] at h1; rw [e2] at h2
      refine ⟨by omega, Fin.ext (by omega), Fin.ext (by omega)⟩
    · rw [dif_neg hb] at h; exact absurd h (by simp)
  · rintro ⟨h0, h1, h2⟩
    have hb : ∀ a, 0 ≤ sd.start j idx a + sd.window j a ∧ sd.start j idx a + sd.window j a < S128x64x64.size a := by
      intro a
      match a with
      | ⟨0, _⟩ =>
        show 0 ≤ sd.start j idx 0 + sd.window j 0 ∧ sd.start j idx 0 + sd.window j 0 < ((S128x64x64.size 0 : ℕ) : ℤ)
        rw [e0, h0]; exact ⟨Int.natCast_nonneg _, Int.ofNat_lt.2 (i 0).isLt⟩
      | ⟨1, _⟩ =>
        show 0 ≤ sd.start j idx 1 + sd.window j 1 ∧ sd.start j idx 1 + sd.window j 1 < ((S128x64x64.size 1 : ℕ) : ℤ)
        rw [e1]; exact ⟨Int.natCast_nonneg _, Int.ofNat_lt.2 (j 1).isLt⟩
      | ⟨2, _⟩ =>
        show 0 ≤ sd.start j idx 2 + sd.window j 2 ∧ sd.start j idx 2 + sd.window j 2 < ((S128x64x64.size 2 : ℕ) : ℤ)
        rw [e2]; exact ⟨Int.natCast_nonneg _, Int.ofNat_lt.2 (j 2).isLt⟩
    rw [dif_pos hb]
    congr 1
    funext a
    apply Fin.ext
    match a with
    | ⟨0, _⟩ => show (sd.start j idx 0 + sd.window j 0).toNat = (i 0).val; rw [e0, h0]; simp
    | ⟨1, _⟩ => show (sd.start j idx 1 + sd.window j 1).toNat = (i 1).val; rw [e1, h1]; simp
    | ⟨2, _⟩ => show (sd.start j idx 2 + sd.window j 2).toNat = (i 2).val; rw [e2, h2]; simp

/-- The same at an update index given by its coordinates. -/
theorem resultIdx_ix3_iff (n : Fin 50000) (s t : Fin 64) (idx : IVec S50000x1 32) (i : S128x64x64.Idx) :
    sd.resultIdx? (ix3 n s t) idx = some i ↔
      (idx (ix2 n (0 : Fin 1))).toInt = ((i 0).val : ℤ) ∧ s = i 1 ∧ t = i 2 :=
  resultIdx_iff (ix3 n s t) idx i

/-! ## Sums over the updates' indices -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The operands of the scatter -/

/-- The update at (n, s, t) is the node's bump as the reference spells it. -/
theorem upd_eq (x0 : Cert.Spec.SX.Idx → EReal) (x1 : Cert.Spec.SV.Idx → EReal) (x2 : Cert.Spec.SL.Idx → EReal)
    (n : Fin 50000) (s t : Fin 64) :
    Read.val_main_v13 (F := Ideal) x0 x1 x2 (ix3 n s t) = Cert.Spec.bumpR x0 x1 x2 n s t := by
  rw [Read.val_main_v13_apply, Read.val_main_v12_apply, Read.val_main_cst_1_apply, Read.val_main_v11_apply,
    Read.val_main_v10_apply, Read.val_main_cst_0_apply, Read.val_main_v9_apply, Read.val_main_v8_apply,
    Read.val_main_v7_apply, Read.val_main_v6_apply, Read.val_main_cst_apply, Read.val_main_v5_apply,
    Read.val_main_v3_apply, Read.val_main_v1_apply, Read.val_main_v4_apply, Read.val_main_v2_apply,
    Read.val_main_v0_apply]
  have eL : Read.idx_main_v1 (Read.idx_main_v3 (ix3 n s t)) = ix1 s :=
    funext fun a => Fin.ext (by match a with | ⟨0, _⟩ => rfl)
  have eX : ∀ k : Fin 3, Read.lidx_main_v0 (Read.idx_main_v2 (Read.idx_main_v4 (ix3 n s t))) k = ix2 n k := fun k =>
    funext fun a => Fin.ext (by match a with | ⟨0, _⟩ => rfl | ⟨1, _⟩ => rfl)
  have eV : ∀ k : Fin 3, Read.ridx_main_v0 (Read.idx_main_v2 (Read.idx_main_v4 (ix3 n s t))) k = ix2 k t := fun k =>
    funext fun a => Fin.ext (by match a with | ⟨0, _⟩ => rfl | ⟨1, _⟩ => rfl)
  simp only [eL, eX, eV, Ideal.hostDivf_def, Ideal.addf_def, Ideal.hostUnary_exp_def, Ideal.hostNegf_def, Ideal.negf_def,
    Ideal.mulf_def, Ideal.subf_def, Ideal.ofBits_def, Ideal.ofBits_one_f32]
  rfl

/-- The operand of the scatter is zero everywhere. -/
theorem zero_at (i : S128x64x64.Idx) : Read.val_main_v14 (F := Ideal) i = 0 := by
  rw [Read.val_main_v14_apply, Read.val_main_cst_2_apply, Ideal.ofBits_def, Ideal.ofBits_zero_f32]

/-- The scatter indices at row n are the node's graph number. -/
theorem idx_at (x3 : Cert.Spec.SB.Idx → BitVec 32) (n : Fin 50000) :
    Read.val_main_v15 (F := Ideal) x3 (ix2 n (0 : Fin 1)) = x3 (ix1 n) := by
  rw [Read.val_main_v15_apply]
  exact congrArg x3 (funext fun a => Fin.ext (by match a with | ⟨0, _⟩ => rfl))

/-! ## The reference's result -/

/-- The reference's result is G: at (g, s, t), the sum over the nodes whose graph number is g of their bumps at (s, t). -/
theorem ref_eq (x0 : Cert.Spec.SX.Idx → EReal) (x1 : Cert.Spec.SV.Idx → EReal) (x2 : Cert.Spec.SL.Idx → EReal) (x3 : Cert.Spec.SB.Idx → BitVec 32) :
    Cert.ReferenceIdeal.Read.val_main_v16 (F := Ideal) x0 x1 x2 x3 = Cert.Spec.G x0 x1 x2 x3 := by
  funext i
  unfold Read.val_main_v16 Host.scatterAdd
  rw [Ideal.hostScatterAdd_def]
  unfold Ideal.hostScatterAdd Cert.Spec.G
  rw [zero_at, zero_add, Finset.sum_filter, sum_idx3]
  refine Finset.sum_congr rfl fun n _ => ?_
  refine (Finset.sum_eq_single (i 1) ?_ (fun h => absurd (Finset.mem_univ _) h)).trans ?_
  · intro s _ hs
    exact Finset.sum_eq_zero fun t _ => if_neg (fun h => hs ((resultIdx_ix3_iff n s t _ i).1 h).2.1)
  refine (Finset.sum_eq_single (i 2) ?_ (fun h => absurd (Finset.mem_univ _) h)).trans ?_
  · intro t _ ht
    exact if_neg (fun h => ht ((resultIdx_ix3_iff n (i 1) t _ i).1 h).2.2)
  by_cases hA : (x3 (ix1 n)).toInt = ((i 0).val : ℤ)
  · rw [if_pos hA, if_pos ((resultIdx_ix3_iff n (i 1) (i 2) _ i).2 ⟨by rw [idx_at]; exact hA, rfl, rfl⟩)]
    exact upd_eq x0 x1 x2 n (i 1) (i 2)
  · rw [if_neg hA, if_neg (fun h => hA (by have := ((resultIdx_ix3_iff n (i 1) (i 2) _ i).1 h).1; rwa [idx_at] at this))]

end Cert.RefValue

end
-- ==== Proof.Bridge.lean ====
/-
  The kernel's spelling of the result equals the reference's when the float inputs are real numbers.

  Three facts. A node's bump is the same in both spellings: over the reals
  500 * l - 500 * ((a + b) + c) = 500 * (l - (a + b + c)); over the extended reals the distributive law can
  fail at an infinity, so this is where the entries are taken to be real. A product with the indicator of
  "the graph number is g" is the choice between the value and zero, and for g below 128 a 32-bit word is
  the word of g exactly when its signed reading is g. The sum over two halves of five tiles of five
  thousand rows runs over every node once, since (sh, p, r) -> (sh * 5 + p) * 5000 + r is a bijection onto
  0 .. 49999; addition is commutative and associative, so the order does not matter.
-/
import proofs.«429855_j39994735461117_3_alg».proof.Proof.Spec
import Mathlib.Data.EReal.Operations
import Mathlib.Algebra.BigOperators.Fin
import Mathlib.Logic.Equiv.Fin.Basic
import Mathlib.Tactic.Ring
import Mathlib.Tactic.NormNum

noncomputable section

namespace Cert.Spec

open Idealize.ShloMosaic Idealize.ShloMosaic.ValueIdx
open scoped BigOperators

/-- The sharpness is a real number. -/
theorem c500_real : ∃ c : ℝ, c500 = (c : EReal) := by
  refine ⟨500, ?_⟩
  simp [c500, Ideal.ofBits, Ideal.ieee, -EReal.coe_mul]
  norm_num

/-- With real entries the two spellings of a node's bump agree. -/
theorem bumpK_eq_bumpR (X : SX.Idx → EReal) (Vv : SV.Idx → EReal) (Ln : SL.Idx → EReal)
    (hX : ∀ i, ∃ r : ℝ, X i = (r : EReal)) (hV : ∀ i, ∃ r : ℝ, Vv i = (r : EReal))
    (hL : ∀ i, ∃ r : ℝ, Ln i = (r : EReal)) (n : Fin 50000) (s t : Fin 64) :
    bumpK X Vv Ln n s t = bumpR X Vv Ln n s t := by
  obtain ⟨c, hc⟩ := c500_real
  obtain ⟨l, hl⟩ := hL (ix1 s)
  obtain ⟨a0, ha0⟩ := hX (ix2 n (0 : Fin 3))
  obtain ⟨a1, ha1⟩ := hX (ix2 n (1 : Fin 3))
  obtain ⟨a2, ha2⟩ := hX (ix2 n (2 : Fin 3))
  obtain ⟨b0, hb0⟩ := hV (ix2 (0 : Fin 3) t)
  obtain ⟨b1, hb1⟩ := hV (ix2 (1 : Fin 3) t)
  obtain ⟨b2, hb2⟩ := hV (ix2 (2 : Fin 3) t)
  unfold bumpK bumpR
  rw [Fin.sum_univ_three, hc, hl, ha0, ha1, ha2, hb0, hb1, hb2]
  simp only [← EReal.coe_mul, ← EReal.coe_add, ← EReal.coe_sub]
  congr 2
  ring

/-- Below 2 ^ 31 a word is the word of g exactly when its signed reading is g. -/
theorem eq_ofNat_iff_toInt (b : BitVec 32) (g : Nat) (hg : g < 128) :
    b = BitVec.ofNat 32 g ↔ b.toInt = (g : Int) := by
  have hto : (BitVec.ofNat 32 g).toInt = (g : Int) := by
    rw [BitVec.toInt_ofNat', Int.bmod_def]
    omega
  constructor
  · rintro rfl
    exact hto
  · intro h
    exact BitVec.eq_of_toInt_eq (h.trans hto.symm)

/-- A product with the indicator of a graph number is the choice between the value and zero. -/
theorem ind_mul (b : BitVec 32) (g : Nat) (hg : g < 128) (z : EReal) :
    (if b = BitVec.ofNat 32 g then (1 : EReal) else 0) * z = if b.toInt = (g : Int) then z else 0 := by
  by_cases h : b = BitVec.ofNat 32 g
  · rw [if_pos h, if_pos ((eq_ofNat_iff_toInt b g hg).1 h), one_mul]
  · rw [if_neg h, if_neg (mt (eq_ofNat_iff_toInt b g hg).2 h), zero_mul]

/-- The halves, tiles and rows together run over every node once. -/
def rowEquiv : (Fin 2 × Fin 5) × Fin 5000 ≃ Fin 50000 :=
  (Equiv.prodCongr (finProdFinEquiv (m := 2) (n := 5)) (Equiv.refl (Fin 5000))).trans
    (finProdFinEquiv (m := 10) (n := 5000))

theorem rowEquiv_apply (sh : Fin 2) (p : Fin 5) (r : Fin 5000) : rowEquiv ((sh, p), r) = row sh p r := by
  apply Fin.ext
  simp [rowEquiv, row, finProdFinEquiv]
  ring

/-- A sum over halves, tiles and rows is the sum over the nodes. -/
theorem sum_row {M : Type} [AddCommMonoid M] (f : Fin 50000 → M) :
    ∑ sh : Fin 2, ∑ p : Fin 5, ∑ r : Fin 5000, f (row sh p r) = ∑ n : Fin 50000, f n := by
  rw [← rowEquiv.sum_comp f, Fintype.sum_prod_type, Fintype.sum_prod_type]
  refine Finset.sum_congr rfl fun sh _ => Finset.sum_congr rfl fun p _ => Finset.sum_congr rfl fun r _ => ?_
  rw [rowEquiv_apply]

/-- With real entries the kernel's result is the reference's. -/
theorem K_eq_G (X : SX.Idx → EReal) (Vv : SV.Idx → EReal) (Ln : SL.Idx → EReal) (Bt : SB.Idx → BitVec 32)
    (hX : ∀ i, ∃ r : ℝ, X i = (r : EReal)) (hV : ∀ i, ∃ r : ℝ, Vv i = (r : EReal)) (hL : ∀ i, ∃ r : ℝ, Ln i = (r : EReal)) :
    K X Vv Ln Bt = G X Vv Ln Bt := by
  funext i
  have hg : (i 0).val < 128 := (i 0).isLt
  unfold K G
  rw [sum_row (fun n : Fin 50000 =>
    (if Bt (ix1 n) = BitVec.ofNat 32 (i 0).val then (1 : EReal) else 0) * bumpK X Vv Ln n (i 1) (i 2))]
  refine Finset.sum_congr rfl fun n _ => ?_
  have hb : bumpK X Vv Ln n (i 1) (i 2) = bumpR X Vv Ln n (i 1) (i 2) :=
    bumpK_eq_bumpR X Vv Ln hX hV hL n (i 1) (i 2)
  exact (ind_mul _ _ hg _).trans
    (congrArg (fun z : EReal => if (Bt (ix1 n)).toInt = ((i 0).val : ℤ) then z else 0) hb)

end Cert.Spec

end
-- ==== Proof.Finite.lean ====
/-
  The precondition says every float input is finite: it is the conjunction, over the three float arrays,
  of "every entry x has |x| < +∞". Over the extended reals |x| is max x (-x), and an extended real whose
  absolute value lies strictly below +∞ is neither -∞ (whose absolute value is +∞) nor +∞, hence a real number.

  The predicate is a chain of three reductions by "and" over the elementwise comparisons, joined by two more
  "and"s. A conjunction of one-bit words is 1 exactly when both words are 1, and a reduction by "and" over all
  axes that comes out 1 had a 1 at every index, so the claim that the predicate is 1 gives the comparison at
  every entry of every array.
-/
import proofs.«429855_j39994735461117_3_alg».proof.Proof.Gen.Pre_finite_inputs
import Idealize.ShloMosaic.Lib.ReduceAll
import proofs.«429855_j39994735461117_3_alg».proof.Proof.Spec

noncomputable section

namespace Cert.Finite

open Idealize.ShloMosaic

/-- The shape with no axes has a single index. -/
instance : Subsingleton Cert.Pre_finite_inputs.S_.Idx := ⟨fun a b => funext fun d => d.elim0⟩

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the three float arrays is a real number. -/
theorem finite_of_pre (X : Cert.Spec.SX.Idx → EReal) (Vv : Cert.Spec.SV.Idx → EReal) (Ln : Cert.Spec.SL.Idx → EReal) (Bt : Cert.Spec.SB.Idx → BitVec 32)
    (h : Cert.Pre_finite_inputs.fn (F := Ideal) X Vv Ln Bt = fun _ => 1#1) :
    (∀ i, ∃ r : ℝ, X i = (r : EReal)) ∧ (∀ i, ∃ r : ℝ, Vv i = (r : EReal)) ∧ (∀ i, ∃ r : ℝ, Ln i = (r : EReal)) := by
  have h0 := congrFun h ValueIdx.ix0
  dsimp only [Cert.Pre_finite_inputs.fn, andi] at h0
  -- the outer conjunction: (first array and second array) and third array
  obtain ⟨h01, h2⟩ := IntOp.andi_eq_one.1 h0
  obtain ⟨h00, h1⟩ := IntOp.andi_eq_one.1 h01
  refine ⟨fun i => ?_, fun i => ?_, fun i => ?_⟩
  · exact real_of_abs_lt _ (Host.reduce_andi_all _ _ _ _ _ h00 i)
  · exact real_of_abs_lt _ (Host.reduce_andi_all _ _ _ _ _ h1 i)
  · exact real_of_abs_lt _ (Host.reduce_andi_all _ _ _ _ _ h2 i)

end Cert.Finite

end
-- ==== Proof.lean ====
/-
  Equivalence of a tiled one-hot-matmul kernel with a scatter-add reference, over the extended reals.

  Inputs: x (50000 x 3), v (3 x 64), lin (64), batch (50000 graph numbers). A node n has heights
  h(n, t) = sum over k of x[n, k] v[k, t]; its bump at step s and direction t is the logistic function of
  500 (lin[s] - h(n, t)); the result at (g, s, t) is the sum of the bumps of the nodes whose graph number is g
  (a number outside 0 .. 127 selects no entry).

  The reference forms all 50000 x 64 x 64 bumps and adds them into 128 bins by a scatter (RefValue: G). The kernel
  walks the nodes in two halves of five tiles of 5000 rows; per tile it forms the heights as
  (x0 v0 + x1 v1) + x2 v2, scales them and the steps by 500 separately, applies the logistic function to the
  difference, and adds the tile's bumps into the bins by multiplying with the 128 x 5000 indicator of
  batch = g (Pieces, PointValue: one tile; Accum: the five tiles of a half; Tail: the two halves; KernelRun: K).

  K = G (Bridge) uses: 500 l - 500 h = 500 (l - h), which needs every entry of x, v and lin to be a real number
  (Finite: that is what the precondition says); a product with a 0/1 indicator is a selection; a sum over two
  halves, five tiles and 5000 rows is the sum over the 50000 nodes. The logistic function is one function for
  both programs, so nothing else about it is used. No rewrite was applied in printing the idealized kernel.
-/
import proofs.«429855_j39994735461117_3_alg».proof.Defs
import proofs.«429855_j39994735461117_3_alg».proof.Proof.Gen.Kernel
import proofs.«429855_j39994735461117_3_alg».proof.Proof.Gen.Kernel.Frame
import proofs.«429855_j39994735461117_3_alg».proof.Proof.Gen.KernelIdeal
import proofs.«429855_j39994735461117_3_alg».proof.Proof.Gen.KernelIdeal.Frame
import proofs.«429855_j39994735461117_3_alg».proof.Proof.Gen.ReferenceIdeal
import proofs.«429855_j39994735461117_3_alg».proof.Proof.Gen.ReferenceIdeal.Run
import proofs.«429855_j39994735461117_3_alg».proof.Proof.Gen.ReferenceIdeal.Read
import proofs.«429855_j39994735461117_3_alg».proof.Proof.Gen.Pre_finite_inputs
import proofs.«429855_j39994735461117_3_alg».proof.Proof.KernelRun
import proofs.«429855_j39994735461117_3_alg».proof.Proof.RefValue
import proofs.«429855_j39994735461117_3_alg».proof.Proof.Bridge
import proofs.«429855_j39994735461117_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Printing the idealized kernel rewrote nothing. -/
theorem preserves : Cert.preserves_Kernel_KernelIdeal := trivial

/-- From memories agreeing on the four arguments, the kernel's result array ends at K of them and the reference's
    at G of them; under the precondition the entries of x, v and lin are real numbers, and then K = G. -/
theorem algebraic : Cert.algebraic_KernelIdeal_ReferenceIdeal := by
  intro m ρ m' ρ' hpre hagree
  refine ⟨fun c => Cert.Spec.K (Cert.KernelIdeal.Run.argX m c) (Cert.KernelIdeal.Run.argV m c)
      (Cert.KernelIdeal.Run.argL m c) (Cert.KernelIdeal.Run.argB m c), Cert.KernelIdeal.Run.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefValue.ref_eq, (hagree c).1, (hagree c).2.1, (hagree c).2.2.1,
    (hagree c).2.2.2]
  obtain ⟨hX, hV, hL⟩ := Cert.Finite.finite_of_pre _ _ _ _ (hpre c)
  exact (Cert.Spec.K_eq_G _ _ _ _ hX hV hL).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
